-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x512 : Shape := ⟨3, ![2, 512, 512]⟩
abbrev S128x128 : Shape := ⟨2, ![128, 128]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2x512x128 .f32) (main_arg1 : FVec F S2x512x512 .f32) (main_arg2 : FVec F S128x128 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S2x512x128 : Shape := ⟨3, ![2, 512, 128]⟩
abbrev S2x512x512 : Shape := ⟨3, ![2, 512, 512]⟩
abbrev S128x128 : Shape := ⟨2, ![128, 128]⟩
abbrev S2x128 : Shape := ⟨2, ![2, 128]⟩
abbrev S1x512x128 : Shape := ⟨3, ![1, 512, 128]⟩
abbrev S1x512x512 : Shape := ⟨3, ![1, 512, 512]⟩
abbrev S512x512 : Shape := ⟨2, ![512, 512]⟩
abbrev S512x128 : Shape := ⟨2, ![512, 128]⟩
abbrev S128 : Shape := ⟨1, ![128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S2x512x128, .f32⟩
  | .hbm, ⟨1, _⟩ => ⟨S2x512x512, .f32⟩
  | .hbm, ⟨2, _⟩ => ⟨S128x128, .f32⟩
  | .hbm, ⟨3, _⟩ => ⟨S2x128, .f32⟩
  | .local _ .vmem, ⟨0, _⟩ => ⟨S1x512x128, .f32⟩
  | .local _ .vmem, ⟨1, _⟩ => ⟨S1x512x128, .f32⟩
  | .local _ .vmem, ⟨2, _⟩ => ⟨S1x512x512, .f32⟩
  | .local _ .vmem, ⟨3, _⟩ => ⟨S1x512x512, .f32⟩
  | .local _ .vmem, ⟨4, _⟩ => ⟨S128x128, .f32⟩
  | .local _ .vmem, ⟨5, _⟩ => ⟨S2x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let v12 : Index := Scalar.indexCast arg0
  let c0_11 : Index := 0#32
  ![v12.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  reduces_S512x128_S128 : S512x128.Reduces [0] S128
  h_S1x128 : 0 < S1x128.numel
  shapeCasts_S1x128_S128 : S1x128.ShapeCasts S128
  shapeCasts_S128_S1x128 : S128.ShapeCasts S1x128
  dot_S512x512_S512x128_S512x128_0_0_1_1_n_n_wf : DotDims.WF S512x512 S512x128 S512x128 [0] [0] [1] [1] [] []
  dot_S512x128_S128x128_S512x128_1_0_0_1_n_n_wf : DotDims.WF S512x128 S128x128 S512x128 [1] [0] [0] [1] [] []
  hrank0 : 0 < grid0.rank
  k0_off1_inb : ∀ i : grid0.Coords, ∀ a, (k0_off1 i) a + S1x128.size a ≤ S2x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S2x512x128.size a
  hwx0_0 : ∀ i : grid0.Coords, EltTy.bits .f32 = 32 ∨ (Rect.block (s := S2x512x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)

variable [Facts₀]

def dot_S512x512_S512x128_S512x128_0_0_1_1_n_n : DotDims S512x512 S512x128 S512x128 where
  lhsContracting := [0]
  rhsContracting := [0]
  lhsNonContracting := [1]
  rhsNonContracting := [1]
  lhsBatch := []
  rhsBatch := []
  wf := dot_S512x512_S512x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x128 : Shape := ⟨3, ![2, 512, 128]⟩
abbrev S2x512x512 : Shape := ⟨3, ![2, 512, 512]⟩
abbrev S128x128 : Shape := ⟨2, ![128, 128]⟩
abbrev S2 : Shape := ⟨1, ![2]⟩
abbrev S_ : Shape := ⟨0, ![]⟩
abbrev S2x1x1 : Shape := ⟨3, ![2, 1, 1]⟩
abbrev S512 : Shape := ⟨1, ![512]⟩
abbrev S1x512x1 : Shape := ⟨3, ![1, 512, 1]⟩
abbrev S2x512x1 : Shape := ⟨3, ![2, 512, 1]⟩
abbrev S524288 : Shape := ⟨1, ![524288]⟩
abbrev S1x1x512 : Shape := ⟨3, ![1, 1, 512]⟩
abbrev S2x1x512 : Shape := ⟨3, ![2, 1, 512]⟩
abbrev S1x524288 : Shape := ⟨2, ![1, 524288]⟩
abbrev S2x524288 : Shape := ⟨2, ![2, 524288]⟩
abbrev S1024x128 : Shape := ⟨2, ![1024, 128]⟩
abbrev S524288x1 : Shape := ⟨2, ![524288, 1]⟩
abbrev S524288x128 : Shape := ⟨2, ![524288, 128]⟩
abbrev S2x512 : Shape := ⟨2, ![2, 512]⟩
abbrev S1024 : Shape := ⟨1, ![1024]⟩
abbrev S2x128 : Shape := ⟨2, ![2, 128]⟩
abbrev S1024x1 : Shape := ⟨2, ![1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x512, .f32⟩
  | .hbm, ⟨2, _⟩ => ⟨S128x128, .f32⟩
  | .hbm, ⟨3, _⟩ => ⟨S2, .i32⟩
  | .hbm, ⟨4, _⟩ => ⟨S_, .i32⟩
  | .hbm, ⟨5, _⟩ => ⟨S2, .i32⟩
  | .hbm, ⟨6, _⟩ => ⟨S2, .i32⟩
  | .hbm, ⟨7, _⟩ => ⟨S2x1x1, .i32⟩
  | .hbm, ⟨8, _⟩ => ⟨S512, .i32⟩
  | .hbm, ⟨9, _⟩ => ⟨S1x512x1, .i32⟩
  | .hbm, ⟨10, _⟩ => ⟨S2x512x1, .i32⟩
  | .hbm, ⟨11, _⟩ => ⟨S2x512x1, .i32⟩
  | .hbm, ⟨12, _⟩ => ⟨S2x512x1, .i32⟩
  | .hbm, ⟨13, _⟩ => ⟨S2x512x512, .i32⟩
  | .hbm, ⟨14, _⟩ => ⟨S524288, .i32⟩
  | .hbm, ⟨15, _⟩ => ⟨S512, .i32⟩
  | .hbm, ⟨16, _⟩ => ⟨S1x1x512, .i32⟩
  | .hbm, ⟨17, _⟩ => ⟨S2x1x512, .i32⟩
  | .hbm, ⟨18, _⟩ => ⟨S2x1x512, .i32⟩
  | .hbm, ⟨19, _⟩ => ⟨S2x1x512, .i32⟩
  | .hbm, ⟨20, _⟩ => ⟨S2x512x512, .i32⟩
  | .hbm, ⟨21, _⟩ => ⟨S524288, .i32⟩
  | .hbm, ⟨22, _⟩ => ⟨S524288, .f32⟩
  | .hbm, ⟨23, _⟩ => ⟨S1x524288, .i32⟩
  | .hbm, ⟨24, _⟩ => ⟨S1x524288, .i32⟩
  | .hbm, ⟨25, _⟩ => ⟨S2x524288, .i32⟩
  | .hbm, ⟨26, _⟩ => ⟨S1024x128, .f32⟩
  | .hbm, ⟨27, _⟩ => ⟨S1x524288, .i32⟩
  | .hbm, ⟨28, _⟩ => ⟨S524288, .i32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S524288x1, .i32⟩
  | .hbm, ⟨37, _⟩ => ⟨S524288x128, .f32⟩
  | .hbm, ⟨38, _⟩ => ⟨S524288x1, .f32⟩
  | .hbm, ⟨39, _⟩ => ⟨S524288x128, .f32⟩
  | .hbm, ⟨40, _⟩ => ⟨S524288x128, .f32⟩
  | .hbm, ⟨41, _⟩ => ⟨S1x524288, .i32⟩
  | .hbm, ⟨42, _⟩ => ⟨S524288, .i32⟩
  | .hbm, ⟨43, _⟩ => ⟨S_, .f32⟩
  | .hbm, ⟨44, _⟩ => ⟨S1024x128, .f32⟩
  | .hbm, ⟨45, _⟩ => ⟨S524288x1, .i32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S1024x128, .f32⟩
  | .hbm, ⟨50, _⟩ => ⟨S1024x128, .f32⟩
  | .hbm, ⟨51, _⟩ => ⟨S2, .i32⟩
  | .hbm, ⟨52, _⟩ => ⟨S2x512, .i32⟩
  | .hbm, ⟨53, _⟩ => ⟨S1024, .i32⟩
  | .hbm, ⟨54, _⟩ => ⟨S_, .f32⟩
  | .hbm, ⟨55, _⟩ => ⟨S2x128, .f32⟩
  | .hbm, ⟨56, _⟩ => ⟨S1024x1, .i32⟩
  | .hbm, ⟨57, _⟩ => ⟨S2x128, .f32⟩
  | .hbm, ⟨58, _⟩ => ⟨S_, .f32⟩
  | .hbm, ⟨59, _⟩ => ⟨S2x128, .f32⟩
  | .hbm, ⟨60, _⟩ => ⟨S2x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_v25 : Ref sig .tc := ⟨.hbm, 30, rfl⟩
abbrev main_v26 : Ref sig .tc := ⟨.hbm, 31, rfl⟩
abbrev main_c_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_call0_cst : Ref sig .tc := ⟨.hbm, 48, rfl⟩
abbrev main_call0_v0 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_3 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1x1_0 : S2.BroadcastsInDim S2x1x1 (![0] : Fin 1 → Fin S2x1x1.rank)
  bcast_S512_S1x512x1_1 : S512.BroadcastsInDim S1x512x1 (![1] : Fin 1 → Fin S1x512x1.rank)
  bcast_S2x1x1_S2x512x1_0_1_2 : S2x1x1.BroadcastsInDim S2x512x1 (![0, 1, 2] : Fin 3 → Fin S2x512x1.rank)
  bcast_S1x512x1_S2x512x1_0_1_2 : S1x512x1.BroadcastsInDim S2x512x1 (![0, 1, 2] : Fin 3 → Fin S2x512x1.rank)
  bcast_S2x512x1_S2x512x512_0_1_2 : S2x512x1.BroadcastsInDim S2x512x512 (![0, 1, 2] : Fin 3 → Fin S2x512x512.rank)
  shapeCasts_S2x512x512_S524288 : S2x512x512.ShapeCasts S524288
  bcast_S512_S1x1x512_2 : S512.BroadcastsInDim S1x1x512 (![2] : Fin 1 → Fin S1x1x512.rank)
  bcast_S2x1x1_S2x1x512_0_1_2 : S2x1x1.BroadcastsInDim S2x1x512 (![0, 1, 2] : Fin 3 → Fin S2x1x512.rank)
  bcast_S1x1x512_S2x1x512_0_1_2 : S1x1x512.BroadcastsInDim S2x1x512 (![0, 1, 2] : Fin 3 → Fin S2x1x512.rank)
  bcast_S2x1x512_S2x512x512_0_1_2 : S2x1x512.BroadcastsInDim S2x512x512 (![0, 1, 2] : Fin 3 → Fin S2x512x512.rank)
  bcast_S524288_S1x524288_1 : S524288.BroadcastsInDim S1x524288 (![1] : Fin 1 → Fin S1x524288.rank)
  concatenates_S1x524288_S1x524288_S2x524288_d0 : Shape.Concatenates [S1x524288, S1x524288] S2x524288 0
  shapeCasts_S2x512x128_S1024x128 : S2x512x128.ShapeCasts S1024x128
  slices_S2x524288_S1x524288_0_0 : S2x524288.Slices ![0, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  slices_S2x524288_S1x524288_1_0 : S2x524288.Slices ![1, 0] S1x524288
  bcast_S_S1024x128 : S_.BroadcastsInDim S1024x128 (![] : Fin 0 → Fin S1024x128.rank)
  bcast_S2_S2x512_0 : S2.BroadcastsInDim S2x512 (![0] : Fin 1 → Fin S2x512.rank)
  shapeCasts_S2x512_S1024 : S2x512.ShapeCasts S1024
  bcast_S_S2x128 : S_.BroadcastsInDim S2x128 (![] : Fin 0 → Fin S2x128.rank)
  bcast_S1024_S1024x1_0 : S1024.BroadcastsInDim S1024x1 (![0] : Fin 1 → Fin S1024x1.rank)
  gather_S1024x128_S524288x1_S524288x128_1_0_n_n_0_1_1128_wf : GatherDims.WF S1024x128 S524288x1 S524288x128 [1] [0] [] [0] [] 1 ![1, 128]
  scatter_S1024x128_S524288x1_S524288x128_1_0_0_1_wf : ScatterDims.WF S1024x128 S524288x1 S524288x128 [1] [0] [0] 1
  dot_S1024x128_S128x128_S1024x128_1_0_0_1_n_n_wf : DotDims.WF S1024x128 S128x128 S1024x128 [1] [0] [0] [1] [] []
  scatter_S2x128_S1024x1_S1024x128_1_0_0_1_wf : ScatterDims.WF S2x128 S1024x1 S1024x128 [1] [0] [0] 1

variable [Facts₀]

def gather_S1024x128_S524288x1_S524288x128_1_0_n_n_0_1_1128 : GatherDims S1024x128 S524288x1 S524288x128 where
  offsetDims := [1]
  collapsedSliceDims := [0]
  operandBatchingDims := []
  startIndicesBatchingDims := []
  startIndexMap := [0]
  indexVectorDim := 1
  sliceSizes := ![1, 128]
  wf := gather_S1024x128_S524288x1_S524288x128_1_0_n_n_0_1_1128_wf
def scatter_S1024x128_S524288x1_S524288x128_1_0_0_1 : ScatterDims S1024x128 S524288x1 S524288x128 where
  updateWindowDims := [1]
  insertedWindowDims := [0]
  scatterDimsToOperandDims := [0]
  indexVectorDim := 1
  wf := scatter_S1024x128_S524288x1_S524288x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S2x128_S1024x1_S1024x128_1_0_0_1 : ScatterDims S2x128 S1024x1 S1024x128 where
  updateWindowDims := [1]
  insertedWindowDims := [0]
  scatterDimsToOperandDims := [0]
  indexVectorDim := 1
  wf := scatter_S2x128_S1024x1_S1024x128_1_0_0_1_wf

class Facts : Prop extends Facts₀ where

variable [Facts]
-- ==== Proof.StepBits.lean ====
/-
  The pipelined call, certified with the output block CONSTRAINED point by point instead of named.
  The grid has two points; the output window is the whole 2 × 128 array, staged in one buffer that is written
  back only after the last point. Point t stores ONE row of that buffer, row t, and leaves the other row as it
  found it: at the first point the other row is whatever the buffer happened to hold, so what a point leaves is
  not a function of the arguments alone. The proof data therefore state a RELATION for the output window
  ("row t replaced by the point's row, the rest kept") and exact contents for the three inputs. The body is run
  once, on arbitrary staging memrefs, with the output buffer at arbitrary contents; the relation composed over
  the two points leaves both rows determined, and the one write-back copies them to the array. Everything here
  holds at any float instance.
-/
import proofs.«163731_g37177236914935_cont_8to1_b_467_15_alg».proof.Proof.Gen.Kernel.Frame
import proofs.«163731_g37177236914935_cont_8to1_b_467_15_alg».proof.Proof.Gen.Kernel.Skeleton
import Idealize.ShloMosaic.Lib.WritesUnit
import Idealize.ShloMosaic.Lib.ValueIdx
import Idealize.ShloMosaic.Lib.Pipeline.Value

set_option maxRecDepth 16384

noncomputable section

namespace Cert.Kernel.Step

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! ## One row of the output block per grid point -/

/-- The 2 × 128 block with row `t` replaced by `row` and the other row as it was. -/
def rowPut (t : ℕ) (row : Vec F S1x128 .f32) (Y : Vec F S2x128 .f32) : Vec F S2x128 .f32 :=
  fun y => if (y 0).val = t then row (ix2 (0 : Fin 1) (y 1)) else Y y

/-- The store's row offset is the grid coordinate itself: the coordinate is below 2, so its 32-bit word
    reads back as the same number. -/
theorem off_eq (i : grid0.Coords) : k0_off1 i = ![(i 0).val, 0] := by
  have h : (i 0).val = 0 ∨ (i 0).val = 1 := by
    have := (i 0).isLt
    change (i 0).val < 2 at this
    omega
  rcases h with h | h <;> simp only [k0_off1, h] <;> rfl

/-- A buffer that held `y`, after the one store of `row` at the rows the grid coordinate names, reads as
    `y` with that row replaced. -/
theorem read_rowStore (arg4 : Memref sig .tc .vmem S2x128 .f32) (harg4 : arg4.IsWhole) (i : grid0.Coords)
    (row : Vec F S1x128 .f32) (y : Vec F S2x128 .f32) :
    View.read (Elt F) arg4.view (arg4.view.writes (Elt F) (harg4.unread y)
        [⟨Rect.unit (s := S2x128) (k0_off1 i) S1x128.size (k0_off1_inb i), row⟩])
      = rowPut (i 0).val row y := by
  funext yy
  unfold rowPut
  by_cases h : (yy 0).val = (i 0).val
  · rw [if_pos h]
    exact View.read_writes_cons_rows_of_mem arg4.view (harg4.unread y) (k0_off1_inb i) row [] yy
      (ix2 (0 : Fin 1) (yy 1)) (off_eq i) (by rw [h]; rfl) rfl
  · rw [if_neg h]
    rw [View.read_writes_cons_rows_of_not_mem arg4.view (harg4.unread y) (k0_off1_inb i) row [] yy
      (off_eq i) (W := 1) rfl (by omega)]
    rw [View.writes_nil, harg4.read_unread]

/-! ## The body on any staging memrefs -/

/-- The body's triple with the output buffer's contents NAMED: on whole staging memrefs holding `x0`, `x1`, `x2`
    and the output block at `y`, the body runs to the inputs as they were and the output block at `y` with the row
    of the grid coordinate replaced by the one value the body computes. -/
theorem bodyRun (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x128 .f32) (harg3 : arg3.IsWhole) (arg4 : Memref sig .tc .vmem S2x128 .f32) (harg4 : arg4.IsWhole)
    (x0 : Vec F S1x512x128 .f32) (x1 : Vec F S1x512x512 .f32) (x2 : Vec F S128x128 .f32) (y : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare y
            ∗ (iprop(owns (c : Thread nD τ) arg1 fullShare x0 ∗ owns (c : Thread nD τ) arg2 fullShare x1 ∗ owns (c : Thread nD τ) arg3 fullShare x2
                ∗ owns (c : Thread nD τ) arg4 fullShare (rowPut (i 0).val (k0_pay1 x1 x0 x2) y)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; swap; · iexact H3
    ipureintro
    rw [read_rowStore]
    have hz3 : (![0, 0, 0] : Fin 3 → ℕ) = fun _ => 0 := by funext a; fin_cases a <;> rfl
    have hz2 : (![0, 0] : Fin 2 → ℕ) = fun _ => 0 := by funext a; fin_cases a <;> rfl
    simp only [View.readAt_eq_ld, harg1.read_unread, harg2.read_unread, harg3.read_unread,
      View.ld_unit_zero (S := S1x512x512) hz3, View.ld_unit_zero (S := S1x512x128) hz3, View.ld_unit_zero (S := S128x128) hz2]

/-! ## The proof data -/

variable (m : (ℓ : Loc nD τ sig) → Buf (Elt F) ℓ) (ρ : Dev nD → PrngReg)

/-- The grid is one axis of two points: a point's coordinate is its number. -/
theorem coord_eq : ∀ t : Fin cfg0.N, (grid0.coords t 0).val = t.val :=
  (by decide +kernel : ∀ t : Fin grid0.N, (grid0.coords t 0).val = t.val)

/-- The row point `t` stores: the body's value of the three input blocks at that point. -/
def pay (c : Dev nD) (t : Fin cfg0.N) : Vec F S1x128 .f32 :=
  k0_pay1 (iblk m c 1 t) (iblk m c 0 t) (iblk m c 2 t)

/-- What point `t` makes of the output block it is handed: row `t` becomes the point's row, the other row stays. -/
def rowStep (c : Dev nD) (t : Fin cfg0.N) (Y X : (cfg0.win 3).block.Idx → Elt F (cfg0.win 3).elt) : Prop :=
  X = rowPut t.val (pay m c t) Y

/-- Exact data for the three inputs (each staging buffer holds its block); the output is not named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The output window's relation; the inputs keep the exact data's. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => some (rowStep m c)

/-- The relational proof data: the output block is constrained point by point, never named as a whole. -/
def rdat (c : Dev nD) : RDat τ (Elt F) Unit ℕ (UR sig nD τ) ℕ cfg0 c := (dats m 0 c).toR.override (ovr m c)

theorem A_eq (c : Dev nD) (w : Fin cfg0.W) : (dats m 0 c).A w = V m c (Pipeline.arrRef spec0 w) := by
  dsimp only [dats]

theorem rA_eq (c : Dev nD) (w : Fin cfg0.W) : (rdat m c).A w = V m c (Pipeline.arrRef spec0 w) := A_eq m c w

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- An input's staging buffer, as the body may find it, holds the input's block at the point. -/
theorem finds0 (c : Dev nD) (t : Fin cfg0.N) (Y) (h : (rdat m c).Finds 0 t Y) : Y = iblk m c 0 t := by
  obtain ⟨d, hd⟩ := (dats m 0 c).toR_finds 0 t Y (((dats m 0 c).toR.override_finds (ovr := ovr m c) rfl t Y).mp h)
  rw [hd]; exact before0_0_of m (dats m 0 c) (A_eq m c 0) (after0_0 m c) t d
theorem finds1 (c : Dev nD) (t : Fin cfg0.N) (Y) (h : (rdat m c).Finds 1 t Y) : Y = iblk m c 1 t := by
  obtain ⟨d, hd⟩ := (dats m 0 c).toR_finds 1 t Y (((dats m 0 c).toR.override_finds (ovr := ovr m c) rfl t Y).mp h)
  rw [hd]; exact before0_1_of m (dats m 0 c) (A_eq m c 1) (after0_1 m c) t d
theorem finds2 (c : Dev nD) (t : Fin cfg0.N) (Y) (h : (rdat m c).Finds 2 t Y) : Y = iblk m c 2 t := by
  obtain ⟨d, hd⟩ := (dats m 0 c).toR_finds 2 t Y (((dats m 0 c).toR.override_finds (ovr := ovr m c) rfl t Y).mp h)
  rw [hd]; exact before0_2_of m (dats m 0 c) (A_eq m c 2) (after0_2 m c) t d

/-- An input's block left in place is what the exact data ask of the buffer. -/
theorem leaves0 (c : Dev nD) (t : Fin cfg0.N) (Y) : (rdat m c).after 0 t Y (iblk m c 0 t) := by
  rw [show (rdat m c).after 0 = (dats m 0 c).toR.after 0 from (dats m 0 c).toR.override_after_of_eq_none (ovr := ovr m c) rfl]
  show (dats m 0 c).Leaves 0 t _
  rw [Dat.Leaves.live_iff _ (.inl rfl)]
  exact (after0_0 m c t).symm
theorem leaves1 (c : Dev nD) (t : Fin cfg0.N) (Y) : (rdat m c).after 1 t Y (iblk m c 1 t) := by
  rw [show (rdat m c).after 1 = (dats m 0 c).toR.after 1 from (dats m 0 c).toR.override_after_of_eq_none (ovr := ovr m c) rfl]
  show (dats m 0 c).Leaves 1 t _
  rw [Dat.Leaves.live_iff _ (.inl rfl)]
  exact (after0_1 m c t).symm
theorem leaves2 (c : Dev nD) (t : Fin cfg0.N) (Y) : (rdat m c).after 2 t Y (iblk m c 2 t) := by
  rw [show (rdat m c).after 2 = (dats m 0 c).toR.after 2 from (dats m 0 c).toR.override_after_of_eq_none (ovr := ovr m c) rfl]
  show (dats m 0 c).Leaves 2 t _
  rw [Dat.Leaves.live_iff _ (.inl rfl)]
  exact (after0_2 m c t).symm

/-- The output window's relation is the row step. -/
theorem after3 (c : Dev nD) : (rdat m c).after 3 = rowStep m c :=
  (dats m 0 c).toR.override_after_of_eq_some (ovr := ovr m c) rfl

/-! ## The body obligation -/

/-- Each window's current staging memref at point `t`, as the pipeline passes it to the body. -/
abbrev ms0 (t : Fin cfg0.N) : Memref sig .tc .vmem S1x512x128 .f32 := win0_0.stage (cfg0.slots t 0)
abbrev ms1 (t : Fin cfg0.N) : Memref sig .tc .vmem S1x512x512 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S2x128 .f32 := win0_3.stage (cfg0.slots t 3)

/-- The body at any point, whatever the windows' buffers may hold there: the inputs' buffers hold their blocks
    (`finds0` … `finds2`) and come back unchanged; the output's buffer, handed over at ANY contents, comes back
    with the point's row stored into it. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X))) := by
  have h0 := finds0 m c t (Y 0) (hY 0)
  have h1 := finds1 m c t (Y 1) (hY 1)
  have h2 := finds2 m c t (Y 2) (hY 2)
  rw [show (rdat m c).Φ t.succ = (rdat m c).Φ t.castSucc from rfl,
    show (rdat m c).owesAt () t.succ = (rdat m c).owesAt () t.castSucc from rfl]
  unfold bodyAt0
  iintro ⟨HΦ, Ho, H0, H1, H2, H3⟩
  iapply ((bodyRun c (grid0.coords t) _ _ _ _ _ _ _ _ (Y 0) (Y 1) (Y 2) (Y 3)) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr
    · ipureintro; rw [h0]; exact leaves0 m c t _
    · iexact H0
  isplitl [H1]
  · iexists (Y 1); isplitr
    · ipureintro; rw [h1]; exact leaves1 m c t _
    · iexact H1
  isplitl [H2]
  · iexists (Y 2); isplitr
    · ipureintro; rw [h2]; exact leaves2 m c t _
    · iexact H2
  iexists _; isplitr; swap; · iexact H3
  ipureintro
  rw [after3]
  unfold rowStep pay
  rw [coord_eq, ← h0, ← h1, ← h2]

/-- The library's body obligation of the relational data, at every point. -/
theorem body_obligation (c : Dev nD) : (rdat m c).BodyObligation (defs₀ (F := F)) Variants.none () Set.univ := fun t Y hY => by
  rw [bigSep_W0, bigSep_W0]
  exact sound_body m c t Y hY

/-! ## The run and the frame -/

-- the launch theorem's implicit arguments are found by unifying its conclusion with this one, which takes unfolding
-- plain definitions in a metavariable's type
set_option backward.isDefEq.respectTransparency.types false in
/-- Every weakly fair execution of @main terminates, every input array unchanged and the output array at SOME
    contents the relation allows after both points. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rA_eq m) (hΦ := fun _ _ => rfl)

/-- The frame claim: the run ends with the three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((rA_eq m c 0).trans (V_main_arg0 m c)),
      (Pipeline.RDat.FramePost.arr_in h c 1 rfl).trans ((rA_eq m c 1).trans (V_main_arg1 m c)),
      (Pipeline.RDat.FramePost.arr_in h c 2 rfl).trans ((rA_eq m c 2).trans (V_main_arg2 m c))⟩) (run_main m ρ)

/-! ## What the output array holds after the run -/

/-- The output window is never fetched. -/
theorem fetch0_3 : ∀ t : Fin cfg0.N, (cfg0.win 3).fetch t = false :=
  (by decide +kernel : ∀ t : Fin grid0.N, win0_3.fetch t = false)

/-- The two rows the two points store. -/
def outArr (c : Dev nD) : Vec F S2x128 .f32 :=
  fun y => if (y 0).val = 0 then pay m c t0_0 (ix2 (0 : Fin 1) (y 1)) else pay m c t0_1 (ix2 (0 : Fin 1) (y 1))

/-- Whatever the first point was handed, after both row steps the block is the two stored rows. -/
theorem two_steps (c : Dev nD) (Y0 : Vec F S2x128 .f32) :
    rowPut t0_1.val (pay m c t0_1) (rowPut t0_0.val (pay m c t0_0) Y0) = outArr m c := by
  funext y
  have hy : (y 0).val = 0 ∨ (y 0).val = 1 := by
    have := (y 0).isLt
    change (y 0).val < 2 at this
    omega
  unfold rowPut outArr
  show (if (y 0).val = 1 then pay m c t0_1 (ix2 (0 : Fin 1) (y 1))
      else if (y 0).val = 0 then pay m c t0_0 (ix2 (0 : Fin 1) (y 1)) else Y0 y) = _
  rcases hy with h | h
  · rw [if_neg (by omega), if_pos h, if_pos h]
  · rw [if_pos h, if_neg (by omega)]

/-- The contents the body may leave at the last point are the two stored rows: the last point's buffer is what
    the first point left (the block is not written back in between), and each point replaces its own row. -/
theorem leaves_last (c : Dev nD) (X) (h : (rdat m c).Leaves 3 t0_1 X) : X = outArr m c := by
  obtain ⟨Y1, hF1, hA1⟩ := h
  rw [after3] at hA1
  rcases ((rdat m c).finds_of_pos (fetch0_3 t0_1) (by decide) Y1).mp hF1 with hfl | ⟨Y0, hF0, hA0⟩
  · exact absurd ((flush0_3 _).mp hfl) (by decide)
  · rw [after3] at hA0
    unfold rowStep at hA0 hA1
    rw [hA1, hA0]
    exact two_steps m c _

/-- After the run the output array is the two stored rows. -/
theorem out_eq (c : Dev nD) (Fa : Buf (Elt F) ((cfg0.win 3).arr.view.loc (c.tc : Thread nD τ)))
    (h : (rdat m c).ArrAt 3 cfg0.N Fa) : Fa = outArr m c := by
  have hN : cfg0.N = t0_1.val + 1 := N_0
  have h' := (congrFun (congrArg ((rdat m c).ArrAt 3) hN) Fa).mp h
  rw [RDat.ArrAt_succ, if_pos ((flush0_3 t0_1).mpr rfl)] at h'
  obtain ⟨G₀, X, -, hX, rfl⟩ := h'
  rw [leaves_last m c X hX]
  funext (y : S2x128.Idx)
  have he : ((cfg0.win 3).blk t0_1).view.emb y = y := by
    funext a
    apply Fin.ext
    show win0_3.index t0_1 a * S2x128.size a + 1 * (y a).val = (y a).val
    have hi : ∀ a, win0_3.index t0_1 a = 0 := by decide +kernel
    rw [hi a]; omega
  have hw := View.write_emb_of_mem (v := ((cfg0.win 3).blk t0_1).view) G₀
    ((cfg0.win 3).cut (cfg0.grid.coords t0_1) (outArr m c)) (Finset.mem_univ y)
  rw [he] at hw
  exact hw.trans rfl

/-- The run with the result NAMED: the output array ends at the two stored rows, the arguments as they were. -/
theorem run_value : θ_run defs (onTc (τ := τ) (main (F := F))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨out_eq m c _ ((h c).1 3),
      (Pipeline.RDat.FramePost.arr_in h c 0 rfl).trans ((rA_eq m c 0).trans (V_main_arg0 m c)),
      (Pipeline.RDat.FramePost.arr_in h c 1 rfl).trans ((rA_eq m c 1).trans (V_main_arg1 m c)),
      (Pipeline.RDat.FramePost.arr_in h c 2 rfl).trans ((rA_eq m c 2).trans (V_main_arg2 m c))⟩) (run_main m ρ)

end Cert.Kernel.Step

end
-- ==== Proof.StepIdeal.lean ====
/-
  The pipelined call, certified with the output block CONSTRAINED point by point instead of named.
  The grid has two points; the output window is the whole 2 × 128 array, staged in one buffer that is written
  back only after the last point. Point t stores ONE row of that buffer, row t, and leaves the other row as it
  found it: at the first point the other row is whatever the buffer happened to hold, so what a point leaves is
  not a function of the arguments alone. The proof data therefore state a RELATION for the output window
  ("row t replaced by the point's row, the rest kept") and exact contents for the three inputs. The body is run
  once, on arbitrary staging memrefs, with the output buffer at arbitrary contents; the relation composed over
  the two points leaves both rows determined, and the one write-back copies them to the array. Everything here
  holds at any float instance.
-/
import proofs.«163731_g37177236914935_cont_8to1_b_467_15_alg».proof.Proof.Gen.KernelIdeal.Frame
import proofs.«163731_g37177236914935_cont_8to1_b_467_15_alg».proof.Proof.Gen.KernelIdeal.Skeleton
import Idealize.ShloMosaic.Lib.WritesUnit
import Idealize.ShloMosaic.Lib.ValueIdx
import Idealize.ShloMosaic.Lib.Pipeline.Value

set_option maxRecDepth 16384

noncomputable section

namespace Cert.KernelIdeal.Step

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! ## One row of the output block per grid point -/

/-- The 2 × 128 block with row `t` replaced by `row` and the other row as it was. -/
def rowPut (t : ℕ) (row : Vec F S1x128 .f32) (Y : Vec F S2x128 .f32) : Vec F S2x128 .f32 :=
  fun y => if (y 0).val = t then row (ix2 (0 : Fin 1) (y 1)) else Y y

/-- The store's row offset is the grid coordinate itself: the coordinate is below 2, so its 32-bit word
    reads back as the same number. -/
theorem off_eq (i : grid0.Coords) : k0_off1 i = ![(i 0).val, 0] := by
  have h : (i 0).val = 0 ∨ (i 0).val = 1 := by
    have := (i 0).isLt
    change (i 0).val < 2 at this
    omega
  rcases h with h | h <;> simp only [k0_off1, h] <;> rfl

/-- A buffer that held `y`, after the one store of `row` at the rows the grid coordinate names, reads as
    `y` with that row replaced. -/
theorem read_rowStore (arg4 : Memref sig .tc .vmem S2x128 .f32) (harg4 : arg4.IsWhole) (i : grid0.Coords)
    (row : Vec F S1x128 .f32) (y : Vec F S2x128 .f32) :
    View.read (Elt F) arg4.view (arg4.view.writes (Elt F) (harg4.unread y)
        [⟨Rect.unit (s := S2x128) (k0_off1 i) S1x128.size (k0_off1_inb i), row⟩])
      = rowPut (i 0).val row y := by
  funext yy
  unfold rowPut
  by_cases h : (yy 0).val = (i 0).val
  · rw [if_pos h]
    exact View.read_writes_cons_rows_of_mem arg4.view (harg4.unread y) (k0_off1_inb i) row [] yy
      (ix2 (0 : Fin 1) (yy 1)) (off_eq i) (by rw [h]; rfl) rfl
  · rw [if_neg h]
    rw [View.read_writes_cons_rows_of_not_mem arg4.view (harg4.unread y) (k0_off1_inb i) row [] yy
      (off_eq i) (W := 1) rfl (by omega)]
    rw [View.writes_nil, harg4.read_unread]

/-! ## The body on any staging memrefs -/

/-- The body's triple with the output buffer's contents NAMED: on whole staging memrefs holding `x0`, `x1`, `x2`
    and the output block at `y`, the body runs to the inputs as they were and the output block at `y` with the row
    of the grid coordinate replaced by the one value the body computes. -/
theorem bodyRun (c : Dev nD) (i : grid0.Coords) (arg1 : Memref sig .tc .vmem S1x512x128 .f32) (harg1 : arg1.IsWhole) (arg2 : Memref sig .tc .vmem S1x512x512 .f32) (harg2 : arg2.IsWhole) (arg3 : Memref sig .tc .vmem S128x128 .f32) (harg3 : arg3.IsWhole) (arg4 : Memref sig .tc .vmem S2x128 .f32) (harg4 : arg4.IsWhole)
    (x0 : Vec F S1x512x128 .f32) (x1 : Vec F S1x512x512 .f32) (x2 : Vec F S128x128 .f32) (y : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare y
            ∗ (iprop(owns (c : Thread nD τ) arg1 fullShare x0 ∗ owns (c : Thread nD τ) arg2 fullShare x1 ∗ owns (c : Thread nD τ) arg3 fullShare x2
                ∗ owns (c : Thread nD τ) arg4 fullShare (rowPut (i 0).val (k0_pay1 x1 x0 x2) y)) -∗ K ⟨⟩))
          ⊢ wp frame (wpE (defs₀ (F := F)) Variants.none c none) E (cc0__body i arg1 harg1 arg2 harg2 arg3 harg3 arg4 harg4) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr; swap; · iexact H3
    ipureintro
    rw [read_rowStore]
    have hz3 : (![0, 0, 0] : Fin 3 → ℕ) = fun _ => 0 := by funext a; fin_cases a <;> rfl
    have hz2 : (![0, 0] : Fin 2 → ℕ) = fun _ => 0 := by funext a; fin_cases a <;> rfl
    simp only [View.readAt_eq_ld, harg1.read_unread, harg2.read_unread, harg3.read_unread,
      View.ld_unit_zero (S := S1x512x512) hz3, View.ld_unit_zero (S := S1x512x128) hz3, View.ld_unit_zero (S := S128x128) hz2]

/-! ## The proof data -/

variable (m : (ℓ : Loc nD τ sig) → Buf (Elt F) ℓ) (ρ : Dev nD → PrngReg)

/-- The grid is one axis of two points: a point's coordinate is its number. -/
theorem coord_eq : ∀ t : Fin cfg0.N, (grid0.coords t 0).val = t.val :=
  (by decide +kernel : ∀ t : Fin grid0.N, (grid0.coords t 0).val = t.val)

/-- The row point `t` stores: the body's value of the three input blocks at that point. -/
def pay (c : Dev nD) (t : Fin cfg0.N) : Vec F S1x128 .f32 :=
  k0_pay1 (iblk m c 1 t) (iblk m c 0 t) (iblk m c 2 t)

/-- What point `t` makes of the output block it is handed: row `t` becomes the point's row, the other row stays. -/
def rowStep (c : Dev nD) (t : Fin cfg0.N) (Y X : (cfg0.win 3).block.Idx → Elt F (cfg0.win 3).elt) : Prop :=
  X = rowPut t.val (pay m c t) Y

/-- Exact data for the three inputs (each staging buffer holds its block); the output is not named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The output window's relation; the inputs keep the exact data's. -/
def ovr (c : Dev nD) : (w : Fin cfg0.W) → Option (Fin cfg0.N → (Y X : (cfg0.win w).block.Idx → Elt F (cfg0.win w).elt) → Prop) :=
  fun w => match w with
    | ⟨0, _⟩ => none
    | ⟨1, _⟩ => none
    | ⟨2, _⟩ => none
    | ⟨3, _⟩ => some (rowStep m c)

/-- The relational proof data: the output block is constrained point by point, never named as a whole. -/
def rdat (c : Dev nD) : RDat τ (Elt F) Unit ℕ (UR sig nD τ) ℕ cfg0 c := (dats m 0 c).toR.override (ovr m c)

theorem A_eq (c : Dev nD) (w : Fin cfg0.W) : (dats m 0 c).A w = V m c (Pipeline.arrRef spec0 w) := by
  dsimp only [dats]

theorem rA_eq (c : Dev nD) (w : Fin cfg0.W) : (rdat m c).A w = V m c (Pipeline.arrRef spec0 w) := A_eq m c w

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- An input's staging buffer, as the body may find it, holds the input's block at the point. -/
theorem finds0 (c : Dev nD) (t : Fin cfg0.N) (Y) (h : (rdat m c).Finds 0 t Y) : Y = iblk m c 0 t := by
  obtain ⟨d, hd⟩ := (dats m 0 c).toR_finds 0 t Y (((dats m 0 c).toR.override_finds (ovr := ovr m c) rfl t Y).mp h)
  rw [hd]; exact before0_0_of m (dats m 0 c) (A_eq m c 0) (after0_0 m c) t d
theorem finds1 (c : Dev nD) (t : Fin cfg0.N) (Y) (h : (rdat m c).Finds 1 t Y) : Y = iblk m c 1 t := by
  obtain ⟨d, hd⟩ := (dats m 0 c).toR_finds 1 t Y (((dats m 0 c).toR.override_finds (ovr := ovr m c) rfl t Y).mp h)
  rw [hd]; exact before0_1_of m (dats m 0 c) (A_eq m c 1) (after0_1 m c) t d
theorem finds2 (c : Dev nD) (t : Fin cfg0.N) (Y) (h : (rdat m c).Finds 2 t Y) : Y = iblk m c 2 t := by
  obtain ⟨d, hd⟩ := (dats m 0 c).toR_finds 2 t Y (((dats m 0 c).toR.override_finds (ovr := ovr m c) rfl t Y).mp h)
  rw [hd]; exact before0_2_of m (dats m 0 c) (A_eq m c 2) (after0_2 m c) t d

/-- An input's block left in place is what the exact data ask of the buffer. -/
theorem leaves0 (c : Dev nD) (t : Fin cfg0.N) (Y) : (rdat m c).after 0 t Y (iblk m c 0 t) := by
  rw [show (rdat m c).after 0 = (dats m 0 c).toR.after 0 from (dats m 0 c).toR.override_after_of_eq_none (ovr := ovr m c) rfl]
  show (dats m 0 c).Leaves 0 t _
  rw [Dat.Leaves.live_iff _ (.inl rfl)]
  exact (after0_0 m c t).symm
theorem leaves1 (c : Dev nD) (t : Fin cfg0.N) (Y) : (rdat m c).after 1 t Y (iblk m c 1 t) := by
  rw [show (rdat m c).after 1 = (dats m 0 c).toR.after 1 from (dats m 0 c).toR.override_after_of_eq_none (ovr := ovr m c) rfl]
  show (dats m 0 c).Leaves 1 t _
  rw [Dat.Leaves.live_iff _ (.inl rfl)]
  exact (after0_1 m c t).symm
theorem leaves2 (c : Dev nD) (t : Fin cfg0.N) (Y) : (rdat m c).after 2 t Y (iblk m c 2 t) := by
  rw [show (rdat m c).after 2 = (dats m 0 c).toR.after 2 from (dats m 0 c).toR.override_after_of_eq_none (ovr := ovr m c) rfl]
  show (dats m 0 c).Leaves 2 t _
  rw [Dat.Leaves.live_iff _ (.inl rfl)]
  exact (after0_2 m c t).symm

/-- The output window's relation is the row step. -/
theorem after3 (c : Dev nD) : (rdat m c).after 3 = rowStep m c :=
  (dats m 0 c).toR.override_after_of_eq_some (ovr := ovr m c) rfl

/-! ## The body obligation -/

/-- Each window's current staging memref at point `t`, as the pipeline passes it to the body. -/
abbrev ms0 (t : Fin cfg0.N) : Memref sig .tc .vmem S1x512x128 .f32 := win0_0.stage (cfg0.slots t 0)
abbrev ms1 (t : Fin cfg0.N) : Memref sig .tc .vmem S1x512x512 .f32 := win0_1.stage (cfg0.slots t 1)
abbrev ms2 (t : Fin cfg0.N) : Memref sig .tc .vmem S128x128 .f32 := win0_2.stage (cfg0.slots t 2)
abbrev ms3 (t : Fin cfg0.N) : Memref sig .tc .vmem S2x128 .f32 := win0_3.stage (cfg0.slots t 3)

/-- The body at any point, whatever the windows' buffers may hold there: the inputs' buffers hold their blocks
    (`finds0` … `finds2`) and come back unchanged; the output's buffer, handed over at ANY contents, comes back
    with the point's row stored into it. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X))) := by
  have h0 := finds0 m c t (Y 0) (hY 0)
  have h1 := finds1 m c t (Y 1) (hY 1)
  have h2 := finds2 m c t (Y 2) (hY 2)
  rw [show (rdat m c).Φ t.succ = (rdat m c).Φ t.castSucc from rfl,
    show (rdat m c).owesAt () t.succ = (rdat m c).owesAt () t.castSucc from rfl]
  unfold bodyAt0
  iintro ⟨HΦ, Ho, H0, H1, H2, H3⟩
  iapply ((bodyRun c (grid0.coords t) _ _ _ _ _ _ _ _ (Y 0) (Y 1) (Y 2) (Y 3)) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr
    · ipureintro; rw [h0]; exact leaves0 m c t _
    · iexact H0
  isplitl [H1]
  · iexists (Y 1); isplitr
    · ipureintro; rw [h1]; exact leaves1 m c t _
    · iexact H1
  isplitl [H2]
  · iexists (Y 2); isplitr
    · ipureintro; rw [h2]; exact leaves2 m c t _
    · iexact H2
  iexists _; isplitr; swap; · iexact H3
  ipureintro
  rw [after3]
  unfold rowStep pay
  rw [coord_eq, ← h0, ← h1, ← h2]

/-- The library's body obligation of the relational data, at every point. -/
theorem body_obligation (c : Dev nD) : (rdat m c).BodyObligation (defs₀ (F := F)) Variants.none () Set.univ := fun t Y hY => by
  rw [bigSep_W0, bigSep_W0]
  exact sound_body m c t Y hY

/-! ## The run and the frame -/

-- the launch theorem's implicit arguments are found by unifying its conclusion with this one, which takes unfolding
-- plain definitions in a metavariable's type
set_option backward.isDefEq.respectTransparency.types false in
/-- Every weakly fair execution of @main terminates, every input array unchanged and the output array at SOME
    contents the relation allows after both points. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rA_eq m) (hΦ := fun _ _ => rfl)

/-- The frame claim: the run ends with the three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((rA_eq m c 0).trans (V_main_arg0 m c)),
      (Pipeline.RDat.FramePost.arr_in h c 1 rfl).trans ((rA_eq m c 1).trans (V_main_arg1 m c)),
      (Pipeline.RDat.FramePost.arr_in h c 2 rfl).trans ((rA_eq m c 2).trans (V_main_arg2 m c))⟩) (run_main m ρ)

/-! ## What the output array holds after the run -/

/-- The output window is never fetched. -/
theorem fetch0_3 : ∀ t : Fin cfg0.N, (cfg0.win 3).fetch t = false :=
  (by decide +kernel : ∀ t : Fin grid0.N, win0_3.fetch t = false)

/-- The two rows the two points store. -/
def outArr (c : Dev nD) : Vec F S2x128 .f32 :=
  fun y => if (y 0).val = 0 then pay m c t0_0 (ix2 (0 : Fin 1) (y 1)) else pay m c t0_1 (ix2 (0 : Fin 1) (y 1))

/-- Whatever the first point was handed, after both row steps the block is the two stored rows. -/
theorem two_steps (c : Dev nD) (Y0 : Vec F S2x128 .f32) :
    rowPut t0_1.val (pay m c t0_1) (rowPut t0_0.val (pay m c t0_0) Y0) = outArr m c := by
  funext y
  have hy : (y 0).val = 0 ∨ (y 0).val = 1 := by
    have := (y 0).isLt
    change (y 0).val < 2 at this
    omega
  unfold rowPut outArr
  show (if (y 0).val = 1 then pay m c t0_1 (ix2 (0 : Fin 1) (y 1))
      else if (y 0).val = 0 then pay m c t0_0 (ix2 (0 : Fin 1) (y 1)) else Y0 y) = _
  rcases hy with h | h
  · rw [if_neg (by omega), if_pos h, if_pos h]
  · rw [if_pos h, if_neg (by omega)]

/-- The contents the body may leave at the last point are the two stored rows: the last point's buffer is what
    the first point left (the block is not written back in between), and each point replaces its own row. -/
theorem leaves_last (c : Dev nD) (X) (h : (rdat m c).Leaves 3 t0_1 X) : X = outArr m c := by
  obtain ⟨Y1, hF1, hA1⟩ := h
  rw [after3] at hA1
  rcases ((rdat m c).finds_of_pos (fetch0_3 t0_1) (by decide) Y1).mp hF1 with hfl | ⟨Y0, hF0, hA0⟩
  · exact absurd ((flush0_3 _).mp hfl) (by decide)
  · rw [after3] at hA0
    unfold rowStep at hA0 hA1
    rw [hA1, hA0]
    exact two_steps m c _

/-- After the run the output array is the two stored rows. -/
theorem out_eq (c : Dev nD) (Fa : Buf (Elt F) ((cfg0.win 3).arr.view.loc (c.tc : Thread nD τ)))
    (h : (rdat m c).ArrAt 3 cfg0.N Fa) : Fa = outArr m c := by
  have hN : cfg0.N = t0_1.val + 1 := N_0
  have h' := (congrFun (congrArg ((rdat m c).ArrAt 3) hN) Fa).mp h
  rw [RDat.ArrAt_succ, if_pos ((flush0_3 t0_1).mpr rfl)] at h'
  obtain ⟨G₀, X, -, hX, rfl⟩ := h'
  rw [leaves_last m c X hX]
  funext (y : S2x128.Idx)
  have he : ((cfg0.win 3).blk t0_1).view.emb y = y := by
    funext a
    apply Fin.ext
    show win0_3.index t0_1 a * S2x128.size a + 1 * (y a).val = (y a).val
    have hi : ∀ a, win0_3.index t0_1 a = 0 := by decide +kernel
    rw [hi a]; omega
  have hw := View.write_emb_of_mem (v := ((cfg0.win 3).blk t0_1).view) G₀
    ((cfg0.win 3).cut (cfg0.grid.coords t0_1) (outArr m c)) (Finset.mem_univ y)
  rw [he] at hw
  exact hw.trans rfl

/-- The run with the result NAMED: the output array ends at the two stored rows, the arguments as they were. -/
theorem run_value : θ_run defs (onTc (τ := τ) (main (F := F))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨out_eq m c _ ((h c).1 3),
      (Pipeline.RDat.FramePost.arr_in h c 0 rfl).trans ((rA_eq m c 0).trans (V_main_arg0 m c)),
      (Pipeline.RDat.FramePost.arr_in h c 1 rfl).trans ((rA_eq m c 1).trans (V_main_arg1 m c)),
      (Pipeline.RDat.FramePost.arr_in h c 2 rfl).trans ((rA_eq m c 2).trans (V_main_arg2 m c))⟩) (run_main m ρ)

end Cert.KernelIdeal.Step

end
-- ==== Proof.PayValue.lean ====
/-
  The body's one stored row, read at a column, on the extended reals: the product of the transposed adjacency
  block with the feature block, through the dense layer, rectified, summed over the 512 node rows and scaled by 2⁻⁹.
-/
import proofs.«163731_g37177236914935_cont_8to1_b_467_15_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

/-! ## The first product: both operands contracted along their rows

Its dimension numbers contract axis 0 of the left operand with axis 0 of the right one, so the operand
indices at output index (j, f) and contraction position k are (k, j) on the left and (k, f) on the right:
the product is the transposed left operand times the right operand. -/

/-- Left operand, row axis: the contraction position. -/
private theorem lhsT_0 (i : S512x128.Idx) (q : dot_S512x512_S512x128_S512x128_0_0_1_1_n_n.contr.Idx) :
    (dot_S512x512_S512x128_S512x128_0_0_1_1_n_n.lhsIdx i q 0).val = (q ⟨0, by decide⟩).val :=
  dot_S512x512_S512x128_S512x128_0_0_1_1_n_n.lhsIdx_val_of_single rfl i q

/-- Left operand, column axis: the output's row coordinate. -/
private theorem lhsT_1 (i : S512x128.Idx) (q : dot_S512x512_S512x128_S512x128_0_0_1_1_n_n.contr.Idx) :
    (dot_S512x512_S512x128_S512x128_0_0_1_1_n_n.lhsIdx i q 1).val = (i 0).val := by
  unfold DotDims.lhsIdx
  rw [dif_neg (show ¬(1 : Fin S512x512.rank) ∈ dot_S512x512_S512x128_S512x128_0_0_1_1_n_n.lhsBatch by decide), dif_pos (show (1 : Fin S512x512.rank) ∈ dot_S512x512_S512x128_S512x128_0_0_1_1_n_n.lhsNonContracting by decide)]
  rfl

/-- Right operand, row axis: the contraction position. -/
private theorem rhsT_0 (i : S512x128.Idx) (q : dot_S512x512_S512x128_S512x128_0_0_1_1_n_n.contr.Idx) :
    (dot_S512x512_S512x128_S512x128_0_0_1_1_n_n.rhsIdx i q 0).val = (q ⟨0, by decide⟩).val :=
  dot_S512x512_S512x128_S512x128_0_0_1_1_n_n.rhsIdx_val_of_single rfl i q

/-- Right operand, column axis: the output's column coordinate. -/
private theorem rhsT_1 (i : S512x128.Idx) (q : dot_S512x512_S512x128_S512x128_0_0_1_1_n_n.contr.Idx) :
    (dot_S512x512_S512x128_S512x128_0_0_1_1_n_n.rhsIdx i q 1).val = (i 1).val := by
  unfold DotDims.rhsIdx
  rw [dif_neg (show ¬(1 : Fin S512x128.rank) ∈ dot_S512x512_S512x128_S512x128_0_0_1_1_n_n.rhsBatch by decide), dif_pos (show (1 : Fin S512x128.rank) ∈ dot_S512x512_S512x128_S512x128_0_0_1_1_n_n.rhsNonContracting by decide)]
  rfl

/-- Entry (j, f) of the first product into a zero accumulator: Σ_i A[i, j] · X[i, f]. -/
private theorem mulT_apply (A : FVec Ideal S512x512 .f32) (X : FVec Ideal S512x128 .f32) (j : Fin 512) (f : Fin 128) :
    matmul (F := Ideal) dot_S512x512_S512x128_S512x128_0_0_1_1_n_n none A X (constant (F := Ideal) S512x128 .f32 0x00000000#32) (ix2 j f)
      = ∑ i : Fin 512, A (ix2 i j) * X (ix2 i f) := by
  simp only [matmul]
  rw [Ideal.matmul_constant_zero_apply, ← Equiv.sum_comp (contrEquiv1 dot_S512x512_S512x128_S512x128_0_0_1_1_n_n 512 rfl rfl).symm]
  refine Finset.sum_congr rfl fun k _ => ?_
  have hk := contrEquiv1_symm_val dot_S512x512_S512x128_S512x128_0_0_1_1_n_n 512 rfl rfl k
  have el : dot_S512x512_S512x128_S512x128_0_0_1_1_n_n.lhsIdx (ix2 j f) ((contrEquiv1 dot_S512x512_S512x128_S512x128_0_0_1_1_n_n 512 rfl rfl).symm k) = ix2 k j := funext fun a => Fin.ext (by
    match a with
    | ⟨0, _⟩ => exact (lhsT_0 _ _).trans hk
    | ⟨1, _⟩ => exact lhsT_1 _ _)
  have er : dot_S512x512_S512x128_S512x128_0_0_1_1_n_n.rhsIdx (ix2 j f) ((contrEquiv1 dot_S512x512_S512x128_S512x128_0_0_1_1_n_n 512 rfl rfl).symm k) = ix2 k f := funext fun a => Fin.ext (by
    match a with
    | ⟨0, _⟩ => exact (rhsT_0 _ _).trans hk
    | ⟨1, _⟩ => exact rhsT_1 _ _)
  rw [el, er]

/-! ## The second product: rows of the left operand against columns of the right -/

/-- Left operand, row axis: the output's row coordinate. -/
private theorem lhsW_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl

/-- Left operand, column axis: the contraction position. -/
private theorem lhsW_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q

/-- Right operand, row axis: the contraction position. -/
private theorem rhsW_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q

/-- Right operand, column axis: the output's column coordinate. -/
private theorem rhsW_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- Entry (j, g) of the second product into a zero accumulator: Σ_f H[j, f] · W[f, g]. -/
private theorem mulW_apply (H : FVec Ideal S512x128 .f32) (W : FVec Ideal S128x128 .f32) (j : Fin 512) (g : Fin 128) :
    matmul (F := Ideal) dot_S512x128_S128x128_S512x128_1_0_0_1_n_n none H W (constant (F := Ideal) S512x128 .f32 0x00000000#32) (ix2 j g)
      = ∑ f : Fin 128, H (ix2 j f) * W (ix2 f g) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 j g) ((contrEquiv1 dot_S512x128_S128x128_S512x128_1_0_0_1_n_n 128 rfl rfl).symm k) = ix2 j k := funext fun a => Fin.ext (by
    match a with
    | ⟨0, _⟩ => exact lhsW_0 _ _
    | ⟨1, _⟩ => exact (lhsW_1 _ _).trans hk)
  have er : dot_S512x128_S128x128_S512x128_1_0_0_1_n_n.rhsIdx (ix2 j g) ((contrEquiv1 dot_S512x128_S128x128_S512x128_1_0_0_1_n_n 128 rfl rfl).symm k) = ix2 k g := funext fun a => Fin.ext (by
    match a with
    | ⟨0, _⟩ => exact (rhsW_0 _ _).trans hk
    | ⟨1, _⟩ => exact rhsW_1 _ _)
  rw [el, er]

/-! ## The sum over the node rows -/

/-- The source index over column g with row j put back is (j, g). -/
private theorem lift_rows (g : Fin 128) (j : Fin 512) :
    (reduces_S512x128_S128 : S512x128.Reduces [0] S128).lift (ix1 g) j = ix2 j g :=
  funext fun a => Fin.ext (by
    match a with
    | ⟨0, _⟩ => rfl
    | ⟨1, _⟩ => rfl)

/-- Column g of the sum of a 512 × 128 block over its rows. -/
private theorem rowSum_apply (V : FVec Ideal S512x128 .f32) (hφ : FKind.Formats .f32)
    (hacc : (0x00000000#32 : BitVec 32) = FKind.add.neutral .f32 hφ) (g : Fin 128) :
    multiReduction (F := Ideal) .add [0] S128 V 0x00000000#32 reduces_S512x128_S128 hφ hacc (ix1 g)
      = ∑ j : Fin 512, V (ix2 j g) := by
  refine (Ideal.multiReduction_add_single V 0x00000000#32 reduces_S512x128_S128 hφ hacc (ix1 g)).trans ?_
  exact Finset.sum_congr rfl fun (j : Fin 512) _ => congrArg V (lift_rows g j)

/-- Column g of the stored row: Σ_j max(Σ_f (Σ_i a[0,i,j] · xb[0,i,f]) · w[f,g], 0), times 2⁻⁹. -/
theorem pay_apply (a : Vec Ideal S1x512x512 .f32) (xb : Vec Ideal S1x512x128 .f32) (w : Vec Ideal S128x128 .f32) (g : Fin 128) :
    k0_pay1 (F := Ideal) a xb w (ix2 (0 : Fin 1) g)
      = (∑ j : Fin 512, max (∑ f : Fin 128, (∑ i : Fin 512, a (ix3 (0 : Fin 1) i j) * xb (ix3 (0 : Fin 1) i f)) * w (ix2 f g)) 0)
          * Ideal.ofBits .f32 0x3B000000#32 := by
  unfold k0_pay1
  refine (shapeCast_a_1a_apply _ _ (0 : Fin 1) g).trans ?_
  refine congrArg (· * Ideal.ofBits .f32 0x3B000000#32) ?_
  refine (rowSum_apply _ _ _ g).trans ?_
  refine Finset.sum_congr rfl fun j _ => ?_
  refine (maximumf_apply _ _ _).trans ?_
  refine congrArg₂ max ?_ Ideal.ofBits_zero_f32
  refine (mulW_apply _ _ j g).trans ?_
  refine Finset.sum_congr rfl fun f _ => ?_
  refine congrArg (· * w (ix2 f g)) ?_
  refine (mulT_apply _ _ j f).trans ?_
  refine Finset.sum_congr rfl fun i _ => ?_
  exact congrArg₂ (· * ·) (shapeCast_1ab_ab_apply a _ i j) (shapeCast_1ab_ab_apply xb _ i f)

end Cert.KernelIdeal.PayValue

end
-- ==== Proof.PoolSpec.lean ====
/-
  The pooled graph layer, as one function of the three argument arrays, index by index on the extended reals.
  Node j of graph b collects feature f of every node i of its graph, weighted by the edge weight a[b, i, j];
  the collected features go through the dense layer W and a rectifier; the rows of a graph are then averaged,
  the division by the 512 rows written as the product with the binary fraction 2⁻⁹.
-/
import Idealize.ShloMosaic.PureOps.Ideal
import Idealize.ShloMosaic.Lib.ValueIdx

noncomputable section

open scoped BigOperators

namespace Cert.Pool

open Idealize.ShloMosaic Idealize.ShloMosaic.ValueIdx

/-- Feature f gathered at node j of graph b: the sum over the source nodes i of a[b, i, j] · x[b, i, f]. -/
def agg (x : (⟨3, ![2, 512, 128]⟩ : Shape).Idx → EReal) (a : (⟨3, ![2, 512, 512]⟩ : Shape).Idx → EReal)
    (b : Fin 2) (j : Fin 512) (f : Fin 128) : EReal :=
  ∑ i : Fin 512, a (ix3 b i j) * x (ix3 b i f)

/-- Output feature g of node j of graph b: the gathered features through W, rectified. -/
def hid (x : (⟨3, ![2, 512, 128]⟩ : Shape).Idx → EReal) (a : (⟨3, ![2, 512, 512]⟩ : Shape).Idx → EReal)
    (W : (⟨2, ![128, 128]⟩ : Shape).Idx → EReal) (b : Fin 2) (j : Fin 512) (g : Fin 128) : EReal :=
  max (∑ f : Fin 128, agg x a b j f * W (ix2 f g)) 0

/-- The result: for graph b and feature g, the sum of the 512 node rows times 2⁻⁹ (the word 0x3B000000). -/
def pooled (x : (⟨3, ![2, 512, 128]⟩ : Shape).Idx → EReal) (a : (⟨3, ![2, 512, 512]⟩ : Shape).Idx → EReal)
    (W : (⟨2, ![128, 128]⟩ : Shape).Idx → EReal) : (⟨2, ![2, 128]⟩ : Shape).Idx → EReal :=
  fun o => (∑ j : Fin 512, hid x a W (o 0) j (o 1)) * Ideal.ofBits .f32 0x3B000000#32

end Cert.Pool

end
-- ==== Proof.KernelValue.lean ====
/-
  The kernel's result array, at the ideal values, is the pooled layer of the specification. Point b of the grid
  works on graph b: its feature block is rows (b, ·, ·) of x, its adjacency block rows (b, ·, ·) of a, and W is
  fetched whole; the one row it stores, read at column g, is Σ_j max(Σ_f (Σ_i a[b,i,j] · x[b,i,f]) · W[f,g], 0) · 2⁻⁹,
  which is entry (b, g) of the specification.
-/
import proofs.«163731_g37177236914935_cont_8to1_b_467_15_alg».proof.Proof.StepIdeal
import proofs.«163731_g37177236914935_cont_8to1_b_467_15_alg».proof.Proof.PayValue
import proofs.«163731_g37177236914935_cont_8to1_b_467_15_alg».proof.Proof.PoolSpec

set_option maxRecDepth 16384

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.KernelIdeal.Step

variable (m : (ℓ : Loc nD τ sig) → Buf (Elt Ideal) ℓ) (ρ : Dev nD → PrngReg)

/-- Where each window's block sits at a point: the two batched inputs at the point's graph, W at the origin. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)

/-- The feature block of point t is graph t's rows of x. -/
theorem blk0 (c : Dev nD) (t : Fin cfg0.N) (b : Fin 2) (ht : t.val = b.val) (i : Fin 512) (f : Fin 128) :
    iblk m c 0 t (ix3 (0 : Fin 1) i f) = m ((c.tc : Thread nD τ).loc main_arg0) (ix3 b i f) := by
  show V m c main_arg0 (((cfg0.win 0).blk t).view.emb (ix3 (0 : Fin 1) i f)) = V m c main_arg0 (ix3 b i f)
  refine congrArg (V m c main_arg0) ?_
  funext a
  apply Fin.ext
  match a with
  | ⟨0, _⟩ => show win0_0.index t 0 * 1 + 1 * 0 = b.val; rw [(idx0 t).1]; omega
  | ⟨1, _⟩ => show win0_0.index t 1 * 512 + 1 * i.val = i.val; rw [(idx0 t).2.1]; omega
  | ⟨2, _⟩ => show win0_0.index t 2 * 128 + 1 * f.val = f.val; rw [(idx0 t).2.2]; omega

/-- The adjacency block of point t is graph t's rows of a. -/
theorem blk1 (c : Dev nD) (t : Fin cfg0.N) (b : Fin 2) (ht : t.val = b.val) (i j : Fin 512) :
    iblk m c 1 t (ix3 (0 : Fin 1) i j) = m ((c.tc : Thread nD τ).loc main_arg1) (ix3 b i j) := by
  show V m c main_arg1 (((cfg0.win 1).blk t).view.emb (ix3 (0 : Fin 1) i j)) = V m c main_arg1 (ix3 b i j)
  refine congrArg (V m c main_arg1) ?_
  funext a
  apply Fin.ext
  match a with
  | ⟨0, _⟩ => show win0_1.index t 0 * 1 + 1 * 0 = b.val; rw [(idx1 t).1]; omega
  | ⟨1, _⟩ => show win0_1.index t 1 * 512 + 1 * i.val = i.val; rw [(idx1 t).2.1]; omega
  | ⟨2, _⟩ => show win0_1.index t 2 * 512 + 1 * j.val = j.val; rw [(idx1 t).2.2]; omega

/-- The weight block is all of W at every point. -/
theorem blk2 (c : Dev nD) (t : Fin cfg0.N) (f g : Fin 128) :
    iblk m c 2 t (ix2 f g) = m ((c.tc : Thread nD τ).loc main_arg2) (ix2 f g) := by
  show V m c main_arg2 (((cfg0.win 2).blk t).view.emb (ix2 f g)) = V m c main_arg2 (ix2 f g)
  refine congrArg (V m c main_arg2) ?_
  funext a
  apply Fin.ext
  match a with
  | ⟨0, _⟩ => show win0_2.index t 0 * 128 + 1 * f.val = f.val; rw [(idx2 t).1]; omega
  | ⟨1, _⟩ => show win0_2.index t 1 * 128 + 1 * g.val = g.val; rw [(idx2 t).2]; omega

/-- Column g of the row point t stores is entry (b, g) of the pooled layer, b the point's graph. -/
theorem pay_eq (c : Dev nD) (t : Fin cfg0.N) (b : Fin 2) (ht : t.val = b.val) (g : Fin 128) :
    Step.pay (F := Ideal) m c t (ix2 (0 : Fin 1) g)
      = Cert.Pool.pooled (m ((c.tc : Thread nD τ).loc main_arg0)) (m ((c.tc : Thread nD τ).loc main_arg1))
          (m ((c.tc : Thread nD τ).loc main_arg2)) (ix2 b g) := by
  unfold Step.pay
  rw [Cert.KernelIdeal.PayValue.pay_apply]
  unfold Cert.Pool.pooled Cert.Pool.hid Cert.Pool.agg
  simp only [blk0 m c t b ht, blk1 m c t b ht, blk2 m c t]

/-- The two stored rows are the pooled layer. -/
theorem outArr_eq (c : Dev nD) :
    Step.outArr (F := Ideal) m c
      = Cert.Pool.pooled (m ((c.tc : Thread nD τ).loc main_arg0)) (m ((c.tc : Thread nD τ).loc main_arg1))
          (m ((c.tc : Thread nD τ).loc main_arg2)) := by
  funext y
  obtain ⟨b, g, rfl⟩ : ∃ (b : Fin 2) (g : Fin 128), y = ix2 b g := ⟨y 0, y 1, eq_ix2 y⟩
  unfold Step.outArr
  by_cases hb : b.val = 0
  · rw [if_pos hb]; exact pay_eq m c t0_0 b hb.symm g
  · rw [if_neg hb]; exact pay_eq m c t0_1 b (by have := b.isLt; show 1 = b.val; omega) g

/-- The idealized kernel's run: the result array ends at the pooled layer of the arguments, the arguments unchanged. -/
theorem run : θ_run defs (onTc (τ := τ) (main (F := Ideal))) ⟨m, fun _ => 0, ρ⟩ (fun r => ∀ c : Dev nD,
      r.2.mem ((c.tc : Thread nD τ).loc main_v0)
        = Cert.Pool.pooled (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (outArr_eq m c), (h c).2⟩) (Step.run_value m ρ)

end Cert.KernelIdeal.KValue

end
-- ==== Proof.LibScatterGather.lean ====
/-
  Three host operations read at an index, at the ideal values, for the dimension numbers jnp's
  segment sums and row lookups print: an accumulating scatter into a vector, the same into the rows
  of a matrix, and a gather of whole rows.  Each scatter entry is the operand's plus the sum of the
  updates whose (signed, unclamped) index names it; each gathered row is the operand's row at the
  index read signed and clamped into range.
-/
import Idealize.ShloMosaic.PureOps.Ideal
import Idealize.ShloMosaic.PureOps.Contract
import Idealize.ShloMosaic.Lib.ValueIdx

noncomputable section

namespace Cert.Gcn.Lib

open Idealize.ShloMosaic Idealize.ShloMosaic.ValueIdx

/-- A rank-1 index set is its one coordinate's range. -/
private def idxEquiv1 {n : Nat} : Fin n ≃ (⟨1, ![n]⟩ : Shape).Idx where
  toFun := ix1
  invFun j := j 0
  left_inv _ := rfl
  right_inv j := (eq_ix1 j).symm

section Vec
variable {N n w : Nat} (d : ScatterDims ⟨1, ![N]⟩ ⟨2, ![n, 1]⟩ ⟨1, ![n]⟩)
  (huw : d.updateWindowDims = []) (hiw : d.insertedWindowDims = [0]) (hsd : d.scatterDimsToOperandDims = [0])
  (hiv : d.indexVectorDim = 1)
include huw hiw hsd hiv

/-- The start index of update p on the one operand axis is entry (p, 0) of the index table, read signed. -/
private theorem vec_start (idx : IVec ⟨2, ![n, 1]⟩ w) (j : (⟨1, ![n]⟩ : Shape).Idx) (a : Fin 1) :
    d.start j idx a = (idx (ix2 (j 0) (0 : Fin 1))).toInt := by
  obtain rfl : a = 0 := Subsingleton.elim _ _
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 1, (j X).val = (j 0).val := fun X => by
      obtain rfl : X = 0 := Subsingleton.elim _ _; rfl
    exact e _
  | ⟨1, _⟩ =>
    unfold ScatterDims.siIdx
    rw [dif_pos (by rw [hiv])]
    apply Fin.ext
    show List.idxOf (0 : Fin 1) d.scatterDimsToOperandDims = 0
    rw [hsd]; simp

/-- There is no window: the one operand axis is inserted. -/
private theorem vec_window (j : (⟨1, ![n]⟩ : Shape).Idx) (a : Fin 1) : d.window j a = 0 := by
  unfold ScatterDims.window
  rw [dif_neg]
  obtain rfl : a = 0 := Subsingleton.elim _ _
  simp [ScatterDims.sKept, Shape.kept, hiw]

/-- Update p lands on entry i exactly when its index, read signed, is i. -/
private theorem vec_resultIdx (idx : IVec ⟨2, ![n, 1]⟩ w) (j : (⟨1, ![n]⟩ : Shape).Idx) (i : Fin N) :
    d.resultIdx? j idx = some (ix1 i) ↔ (idx (ix2 (j 0) (0 : Fin 1))).toInt = (i.val : ℤ) := by
  have hst := vec_start d huw hiw hsd hiv idx j
  have hwi := vec_window d huw hiw hsd hiv j
  unfold ScatterDims.resultIdx?
  split
  · rename_i h
    constructor
    · intro he
      have h1 := congrArg Fin.val (congrFun (Option.some.inj he) 0)
      have h0 := (h 0).1
      rw [hst, hwi] at h0
      change (d.start j idx 0 + (d.window j 0 : ℤ)).toNat = i.val at h1
      rw [hst, hwi] at h1
      omega
    · intro he
      congr 1
      funext a
      obtain rfl : a = 0 := Subsingleton.elim _ _
      apply Fin.ext
      change (d.start j idx 0 + (d.window j 0 : ℤ)).toNat = i.val
      rw [hst, hwi, he]
      omega
  · rename_i h
    constructor
    · intro he
      cases he
    · intro he
      exfalso
      apply h
      intro a
      obtain rfl : a = 0 := Subsingleton.elim _ _
      rw [hst, hwi, he]
      have hi : i.val < N := i.isLt
      refine ⟨by omega, ?_⟩
      change ((i.val : ℤ) + ((0 : ℕ) : ℤ)) < ((N : ℕ) : ℤ)
      omega

end Vec

/-- An accumulating scatter into a VECTOR (no window axes; the one operand axis inserted and indexed by
    column 0 of the index table): entry i is the operand's plus the sum of the updates p whose index,
    read signed, is i. -/
theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ p : Fin n, if (idx (ix2 p (0 : Fin 1))).toInt = (i.val : ℤ) then upd (ix1 p) else 0 := by
  unfold Ideal.hostScatterAdd
  congr 1
  rw [Finset.sum_filter, ← Equiv.sum_comp (idxEquiv1 (n := n))]
  refine Finset.sum_congr rfl fun p _ => ?_
  exact if_congr (vec_resultIdx d huw hiw hsd hiv idx (ix1 p) i) rfl rfl

section Rows
variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hiv : d.indexVectorDim = 1)
include huw hiw hsd hiv

/-- The only scatter axis of the updates is axis 0. -/
private theorem rows_uScatter (X : Fin 2) (hX : X ∈ d.uScatter) : X = 0 := by
  have h1 : X ∉ d.updateWindowDims := by
    have := hX
    simp only [ScatterDims.uScatter, Shape.kept, List.mem_filter, List.mem_finRange, true_and, decide_eq_true_eq] at this
    exact this
  rw [huw, List.mem_singleton] at h1
  match X, h1 with
  | ⟨0, _⟩, _ => rfl
  | ⟨1, _⟩, h => exact absurd rfl h

/-- The start index of update row p on operand axis 0 is entry (p, 0) of the index table, read signed. -/
private theorem rows_start0 (idx : IVec ⟨2, ![n, 1]⟩ w) (j : (⟨2, ![n, C]⟩ : Shape).Idx) :
    d.start j idx (0 : Fin 2) = (idx (ix2 (j 0) (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 2, X ∈ d.uScatter → (j X).val = (j 0).val := fun X hX => by
      rw [rows_uScatter d huw hiw hsd hiv X hX]
    exact e _ (List.getElem_mem _)
  | ⟨1, _⟩ =>
    unfold ScatterDims.siIdx
    rw [dif_pos (by rw [hiv])]
    apply Fin.ext
    show List.idxOf (0 : Fin 2) d.scatterDimsToOperandDims = 0
    rw [hsd]; simp

/-- Operand axis 1 is not indexed: its start is 0. -/
private theorem rows_start1 (idx : IVec ⟨2, ![n, 1]⟩ w) (j : (⟨2, ![n, C]⟩ : Shape).Idx) :
    d.start j idx (1 : Fin 2) = 0 := by
  unfold ScatterDims.start
  rw [dif_neg]
  rw [hsd, List.mem_singleton]
  intro h
  exact Nat.one_ne_zero (congrArg Fin.val h)

/-- Operand axis 0 is inserted: no window coordinate. -/
private theorem rows_window0 (j : (⟨2, ![n, C]⟩ : Shape).Idx) : d.window j (0 : Fin 2) = 0 := by
  unfold ScatterDims.window
  rw [dif_neg]
  simp [ScatterDims.sKept, Shape.kept, hiw]

/-- On operand axis 1 the window coordinate is the update's column. -/
private theorem rows_window1 (j : (⟨2, ![n, C]⟩ : Shape).Idx) : d.window j (1 : Fin 2) = (j 1).val := by
  have hk : (1 : Fin 2) ∈ d.sKept := by
    simp [ScatterDims.sKept, Shape.kept, hiw]
  unfold ScatterDims.window
  rw [dif_pos hk]
  have e : ∀ X : Fin 2, X ∈ d.updateWindowDims → (j X).val = (j 1).val := fun X hX => by
    rw [huw, List.mem_singleton] at hX
    rw [hX]
  exact e _ (List.getElem_mem _)

/-- Update (p, b) lands on entry (i, c) exactly when row p's index, read signed, is i and b is c. -/
private theorem rows_resultIdx (idx : IVec ⟨2, ![n, 1]⟩ w) (j : (⟨2, ![n, C]⟩ : Shape).Idx) (i : Fin N) (c : Fin C) :
    d.resultIdx? j idx = some (ix2 i c) ↔ (idx (ix2 (j 0) (0 : Fin 1))).toInt = (i.val : ℤ) ∧ j 1 = c := by
  have hs0 := rows_start0 d huw hiw hsd hiv idx j
  have hs1 := rows_start1 d huw hiw hsd hiv idx j
  have hw0 := rows_window0 d huw hiw hsd hiv j
  have hw1 := rows_window1 d huw hiw hsd hiv j
  have hi : i.val < N := i.isLt
  have hc : c.val < C := c.isLt
  have hj1 : (j 1).val < C := idx2_lt1 j
  unfold ScatterDims.resultIdx?
  split
  · rename_i h
    constructor
    · intro he
      have hf := Option.some.inj he
      have h0 := congrArg Fin.val (congrFun hf (0 : Fin 2))
      have h1 := congrArg Fin.val (congrFun hf (1 : Fin 2))
      change (d.start j idx (0 : Fin 2) + (d.window j (0 : Fin 2) : ℤ)).toNat = i.val at h0
      change (d.start j idx (1 : Fin 2) + (d.window j (1 : Fin 2) : ℤ)).toNat = c.val at h1
      have g0 := (h (0 : Fin 2)).1
      rw [hs0, hw0] at h0 g0
      rw [hs1, hw1] at h1
      refine ⟨by omega, Fin.ext (by omega)⟩
    · rintro ⟨he, hjc⟩
      congr 1
      funext a
      match a with
      | ⟨0, _⟩ =>
        apply Fin.ext
        change (d.start j idx (0 : Fin 2) + (d.window j (0 : Fin 2) : ℤ)).toNat = i.val
        rw [hs0, hw0, he]; omega
      | ⟨1, _⟩ =>
        apply Fin.ext
        change (d.start j idx (1 : Fin 2) + (d.window j (1 : Fin 2) : ℤ)).toNat = c.val
        rw [hs1, hw1, ← hjc]; omega
  · rename_i h
    constructor
    · intro he
      cases he
    · rintro ⟨he, hjc⟩
      exfalso
      apply h
      refine Fin.forall_fin_two.2 ⟨?_, ?_⟩
      · rw [hs0, hw0, he]
        refine ⟨by omega, ?_⟩
        change ((i.val : ℤ) + ((0 : ℕ) : ℤ)) < ((N : ℕ) : ℤ)
        omega
      · rw [hs1, hw1]
        refine ⟨by omega, ?_⟩
        change ((0 : ℤ) + (((j 1).val : ℕ) : ℤ)) < ((C : ℕ) : ℤ)
        omega

end Rows

/-- An accumulating scatter of ROWS into a matrix (window axis 1 of the updates onto operand axis 1; operand
    axis 0 inserted and indexed by column 0 of the index table): entry (i, c) is the operand's plus the sum
    over the update rows p whose index, read signed, is i, of their entry c. -/
theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ w) (upd : (⟨2, ![n, C]⟩ : Shape).Idx → EReal)
    (i : Fin N) (c : Fin C) :
    Ideal.hostScatterAdd d x idx upd (ix2 i c)
      = x (ix2 i c) + ∑ p : Fin n, if (idx (ix2 p (0 : Fin 1))).toInt = (i.val : ℤ) then upd (ix2 p c) else 0 := by
  unfold Ideal.hostScatterAdd
  congr 1
  rw [Finset.sum_filter, sum_idx2]
  refine Finset.sum_congr rfl fun p _ => ?_
  have hb : ∀ b : Fin C, (if d.resultIdx? (ix2 p b) idx = some (ix2 i c) then upd (ix2 p b) else 0)
      = if b = c then (if (idx (ix2 p (0 : Fin 1))).toInt = (i.val : ℤ) then upd (ix2 p b) else 0) else 0 := by
    intro b
    have hiff : d.resultIdx? (ix2 p b) idx = some (ix2 i c)
        ↔ (idx (ix2 p (0 : Fin 1))).toInt = (i.val : ℤ) ∧ b = c :=
      rows_resultIdx d huw hiw hsd hiv idx (ix2 p b) i c
    by_cases h1 : (idx (ix2 p (0 : Fin 1))).toInt = (i.val : ℤ)
    · by_cases h2 : b = c
      · rw [if_pos h2, if_pos h1, if_pos (hiff.2 ⟨h1, h2⟩)]
      · rw [if_neg h2, if_neg (fun h => h2 (hiff.1 h).2)]
    · by_cases h2 : b = c
      · rw [if_pos h2, if_neg h1, if_neg (fun h => h1 (hiff.1 h).1)]
      · rw [if_neg h2, if_neg (fun h => h2 (hiff.1 h).2)]
  rw [Finset.sum_congr rfl (fun b _ => hb b), Finset.sum_ite_eq']
  rw [if_pos (Finset.mem_univ c)]

section GatherRows
variable {N C n w : Nat} (d : GatherDims ⟨2, ![N, C]⟩ ⟨2, ![n, 1]⟩ ⟨2, ![n, C]⟩)
  (hoff : d.offsetDims = [1]) (hcoll : d.collapsedSliceDims = [0]) (hob : d.operandBatchingDims = [])
  (hsim : d.startIndexMap = [0]) (hivd : d.indexVectorDim = 1)
include hoff hcoll hob hsim hivd

/-- The only batch axis of the result is axis 0. -/
private theorem gather_batchDims (X : Fin 2) (hX : X ∈ d.batchDims) : X = 0 := by
  have h1 : X ∉ d.offsetDims := by
    have := hX
    simp only [GatherDims.batchDims, Shape.kept, List.mem_filter, List.mem_finRange, true_and, decide_eq_true_eq] at this
    exact this
  rw [hoff, List.mem_singleton] at h1
  match X, h1 with
  | ⟨0, _⟩, _ => rfl
  | ⟨1, _⟩, h => exact absurd rfl h

/-- On operand axis 0 (collapsed, start-indexed) the row read is entry (p, 0) of the index table, signed and clamped. -/
private theorem gather_coord0 (idx : IVec ⟨2, ![n, 1]⟩ w) (j : (⟨2, ![n, C]⟩ : Shape).Idx) :
    d.start j idx (0 : Fin 2) + d.batchCoord j (0 : Fin 2) + d.offCoord j (0 : Fin 2)
      = min (idx (ix2 (j 0) (0 : Fin 1))).toInt.toNat (N - 1) := by
  have hb : (0 : Fin 2) ∉ d.operandBatchingDims := by rw [hob]; exact List.not_mem_nil
  have hc : (0 : Fin 2) ∈ d.collapsedSliceDims := by rw [hcoll]; exact List.mem_singleton.mpr rfl
  have hk : (0 : Fin 2) ∉ d.sKept := fun h => ((d.mem_sKept _).1 h).1 hc
  have hm : (0 : Fin 2) ∈ d.startIndexMap := by rw [hsim]; exact List.mem_singleton.mpr rfl
  have hsl : d.sliceSizes (0 : Fin 2) = 1 := d.slice_collapsed _ hc
  rw [d.batchCoord_eq_zero j _ hb, d.offCoord_eq_zero j _ hk]
  simp only [Nat.add_zero]
  unfold GatherDims.start
  rw [dif_pos hm, hsl]
  change min _ (N - 1) = _
  congr 4
  funext b
  match b with
  | ⟨0, _⟩ =>
    unfold GatherDims.siIdx
    rw [dif_neg (by rw [hivd]; exact Nat.zero_ne_one)]
    unfold GatherDims.siCoord
    apply Fin.ext
    simp only [Fin.val_cast]
    have e : ∀ X : Fin 2, X ∈ d.batchDims → (j X).val = (j 0).val := fun X hX => by
      rw [gather_batchDims d hoff hcoll hob hsim hivd X hX]
    exact e _ (List.getElem_mem _)
  | ⟨1, _⟩ =>
    unfold GatherDims.siIdx
    rw [dif_pos (by rw [hivd])]
    apply Fin.ext
    show List.idxOf (0 : Fin 2) d.startIndexMap = 0
    rw [hsim]; simp

/-- On operand axis 1 (the offset axis, not start-indexed) the coordinate is the result's column. -/
private theorem gather_coord1 (idx : IVec ⟨2, ![n, 1]⟩ w) (j : (⟨2, ![n, C]⟩ : Shape).Idx) :
    d.start j idx (1 : Fin 2) + d.batchCoord j (1 : Fin 2) + d.offCoord j (1 : Fin 2) = (j 1).val := by
  have hb : (1 : Fin 2) ∉ d.operandBatchingDims := by rw [hob]; exact List.not_mem_nil
  have hc : (1 : Fin 2) ∉ d.collapsedSliceDims := by
    rw [hcoll, List.mem_singleton]
    intro h
    exact Nat.one_ne_zero (congrArg Fin.val h)
  have hk : (1 : Fin 2) ∈ d.sKept := (d.mem_sKept _).2 ⟨hc, hb⟩
  have hm : (1 : Fin 2) ∉ d.startIndexMap := by
    rw [hsim, List.mem_singleton]
    intro h
    exact Nat.one_ne_zero (congrArg Fin.val h)
  rw [d.batchCoord_eq_zero j _ hb, Nat.add_zero]
  unfold GatherDims.start
  rw [dif_neg hm, Nat.zero_add]
  unfold GatherDims.offCoord
  rw [dif_pos hk]
  have e : ∀ X : Fin 2, X ∈ d.offsetDims → (j X).val = (j 1).val := fun X hX => by
    rw [hoff, List.mem_singleton] at hX
    rw [hX]
  exact e _ (List.getElem_mem _)

end GatherRows

/-- A gather of whole ROWS of a matrix (operand axis 0 collapsed and start-indexed by column 0 of the index
    table, operand axis 1 the result's offset axis 1): entry (p, c) of the result is the operand's entry c
    of the row whose number is index p read signed and clamped into [0, N - 1]. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  match a with
  | ⟨0, _⟩ =>
    apply Fin.ext
    exact gather_coord0 d hoff hcoll hob hsim hivd idx (ix2 p c)
  | ⟨1, _⟩ =>
    apply Fin.ext
    exact gather_coord1 d hoff hcoll hob hsim hivd idx (ix2 p c)

end Cert.Gcn.Lib

end
-- ==== Proof.PoolSums.lean ====
/-
  Two re-indexings of finite sums in a commutative monoid. The 2·512·512 edges are numbered row-major,
  edge p = (graph p / 262144, source p / 512 % 512, target p % 512), and node rows r = graph · 512 + node.
-/
import Idealize.ShloMosaic.Lib.ValueIdx

open scoped BigOperators

namespace Cert.Pool

/-- The edges whose target row is b · 512 + j are exactly the 512 edges (b, i, j): a sum over all edges of the
    terms selected by that condition is the sum over the sources i. -/
theorem sum_edges_into {M : Type*} [AddCommMonoid M] (G : ℕ → ℕ → ℕ → M) (b j : ℕ) (hb : b < 2) (hj : j < 512) :
    (∑ p : Fin 524288, if p.val / 262144 * 512 + p.val % 512 = b * 512 + j
        then G (p.val / 262144) (p.val / 512 % 512) (p.val % 512) else 0)
      = ∑ i : Fin 512, G b i.val j := by
  classical
  rw [← Finset.sum_filter]
  symm
  -- the source i of graph b is sent to the edge number b · 262144 + i · 512 + j
  refine Finset.sum_bij
    (fun (i : Fin 512) _ => (⟨b * 262144 + i.val * 512 + j, by have := i.isLt; omega⟩ : Fin 524288))
    ?_ ?_ ?_ ?_
  · -- that edge satisfies the selecting condition
    intro i _
    have hi := i.isLt
    simp only [Finset.mem_filter, Finset.mem_univ, true_and]
    omega
  · -- distinct sources give distinct edge numbers
    intro i₁ _ i₂ _ h
    have h' := congrArg Fin.val h
    simp only at h'
    apply Fin.ext
    omega
  · -- every selected edge p is the image of its own source p / 512 % 512
    intro p hp
    have hp' := p.isLt
    simp only [Finset.mem_filter, Finset.mem_univ, true_and] at hp
    refine ⟨⟨p.val / 512 % 512, by omega⟩, Finset.mem_univ _, ?_⟩
    apply Fin.ext
    simp only
    omega
  · -- the three coordinates of the edge b · 262144 + i · 512 + j are b, i, j
    intro i _
    have hi := i.isLt
    have h1 : (b * 262144 + i.val * 512 + j) / 262144 = b := by omega
    have h2 : (b * 262144 + i.val * 512 + j) / 512 % 512 = i.val := by omega
    have h3 : (b * 262144 + i.val * 512 + j) % 512 = j := by omega
    simp only [h1, h2, h3]

/-- The node rows of graph b are the rows b · 512 + j. -/
theorem sum_rows_of {M : Type*} [AddCommMonoid M] (H : ℕ → M) (b : ℕ) (hb : b < 2) :
    (∑ r : Fin 1024, if r.val / 512 = b then H r.val else 0) = ∑ j : Fin 512, H (b * 512 + j.val) := by
  classical
  rw [← Finset.sum_filter]
  symm
  -- the node j of graph b is sent to the row number b · 512 + j
  refine Finset.sum_bij
    (fun (j : Fin 512) _ => (⟨b * 512 + j.val, by have := j.isLt; omega⟩ : Fin 1024))
    ?_ ?_ ?_ ?_
  · -- that row belongs to graph b
    intro j _
    have hj := j.isLt
    simp only [Finset.mem_filter, Finset.mem_univ, true_and]
    omega
  · -- distinct nodes give distinct rows
    intro j₁ _ j₂ _ h
    have h' := congrArg Fin.val h
    simp only at h'
    apply Fin.ext
    omega
  · -- every row r of graph b is the image of its own node r % 512
    intro r hr
    have hr' := r.isLt
    simp only [Finset.mem_filter, Finset.mem_univ, true_and] at hr
    refine ⟨⟨r.val % 512, by omega⟩, Finset.mem_univ _, ?_⟩
    apply Fin.ext
    simp only
    omega
  · intro j _
    rfl

end Cert.Pool
-- ==== Proof.RefAgg.lean ====
/-
  The reference's scatter of the edge messages, read at a node row and a feature: the row r = b · 512 + j
  receives the messages x[b, i, ·] · a[b, i, j] of the edges (b, i, j), which is the gathered feature of the
  specification.
-/
import proofs.«163731_g37177236914935_cont_8to1_b_467_15_alg».proof.Proof.Gen.ReferenceIdeal.Read
import proofs.«163731_g37177236914935_cont_8to1_b_467_15_alg».proof.Proof.LibScatterGather
import proofs.«163731_g37177236914935_cont_8to1_b_467_15_alg».proof.Proof.PoolSpec
import proofs.«163731_g37177236914935_cont_8to1_b_467_15_alg».proof.Proof.PoolSums
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Read

/-! ## The two index tables stacked and taken apart again -/

/-- Row 0 of the stacked tables is the source table. -/
private theorem v21_row0 (j : S2x524288.Idx) (h : (j 0).val = 0) :
    val_main_v21 (F := Ideal) j = val_main_v19 (F := Ideal) (ix2 (0 : Fin 1) (j 1)) := by
  unfold val_main_v21
  refine concatenate_pair_apply_left 0 (val_main_v19 (F := Ideal)) (val_main_v20 (F := Ideal)) _ j rfl _ (fun b => ?_)
  match b with
  | ⟨0, _⟩ => exact h.symm
  | ⟨1, _⟩ => rfl

/-- Row 1 of the stacked tables is the target table. -/
private theorem v21_row1 (j : S2x524288.Idx) (h : (j 0).val = 1) :
    val_main_v21 (F := Ideal) j = val_main_v20 (F := Ideal) (ix2 (0 : Fin 1) (j 1)) := by
  unfold val_main_v21
  refine concatenate_pair_apply_right 0 (val_main_v19 (F := Ideal)) (val_main_v20 (F := Ideal)) _ j rfl rfl _ (fun b hb => ?_) ?_
  · match b with
    | ⟨0, _⟩ => exact absurd rfl hb
    | ⟨1, _⟩ => rfl
  · show 0 + 1 = (j 0).val
    omega

/-! ## The tables as 32-bit words -/

/-- The graph's row offset b · 512 as a word. -/
private theorem v2_word (i : S2.Idx) : val_main_v2 (F := Ideal) i = BitVec.ofNat 32 (i 0).val * 512#32 := by
  rw [val_main_v2_apply, val_main_v0_apply, val_main_v1_apply, val_main_c_apply]
  rfl

/-- Edge p = (b, i, j) has source row b · 512 + i. -/
private theorem v24_word (i : S524288.Idx) :
    val_main_v24 (F := Ideal) i
      = BitVec.ofNat 32 ((i 0).val / 262144) * 512#32 + BitVec.ofNat 32 ((i 0).val / 512 % 512) := by
  have hp : (i 0).val % 524288 = (i 0).val := Nat.mod_eq_of_lt (i 0).isLt
  rw [val_main_v24_apply, val_main_v23_apply, v21_row0 _ rfl, val_main_v19_apply, val_main_v10_apply,
    val_main_v9_apply, val_main_v8_apply, val_main_v6_apply, val_main_v7_apply, val_main_v3_apply,
    val_main_v5_apply, v2_word, val_main_v4_apply]
  show BitVec.ofNat 32 ((i 0).val % 524288 / 262144) * 512#32 + BitVec.ofNat 32 ((i 0).val % 524288 / 512 % 512) = _
  rw [hp]

/-- Edge p = (b, i, j) has target row b · 512 + j. -/
private theorem v36_word (i : S524288.Idx) :
    val_main_v36 (F := Ideal) i
      = BitVec.ofNat 32 ((i 0).val / 262144) * 512#32 + BitVec.ofNat 32 ((i 0).val % 512) := by
  have hp : (i 0).val % 524288 = (i 0).val := Nat.mod_eq_of_lt (i 0).isLt
  rw [val_main_v36_apply, val_main_v35_apply, v21_row1 _ rfl, val_main_v20_apply, val_main_v17_apply,
    val_main_v16_apply, val_main_v15_apply, val_main_v13_apply, val_main_v14_apply, val_main_v3_apply,
    val_main_v12_apply, v2_word, val_main_v11_apply]
  show BitVec.ofNat 32 ((i 0).val % 524288 / 262144) * 512#32 + BitVec.ofNat 32 ((i 0).val % 524288 % 512) = _
  rw [hp]

/-! ## The words read signed: no overflow, nothing negative -/

/-- b · 512 + i as a word reads, signed, as that number: it stays far below 2³¹. -/
private theorem row_toInt (b i : ℕ) (hb : b < 2) (hi : i < 512) :
    (BitVec.ofNat 32 b * 512#32 + BitVec.ofNat 32 i).toInt = ((b * 512 + i : ℕ) : ℤ) := by
  have e : BitVec.ofNat 32 b * 512#32 + BitVec.ofNat 32 i = BitVec.ofNat 32 (b * 512 + i) := by
    rw [BitVec.ofNat_add, BitVec.ofNat_mul]
  rw [e]
  exact StableHlo.Predicate.toInt_ofNat_small _ (by omega)

/-- The wrap of negative indices leaves a non-negative word as it is. -/
private theorem wrap_nonneg (w : BitVec 32) (n : ℕ) (hw : w.toInt = (n : ℤ)) :
    Scalar.select (IntOp.cmpi .slt w 0#32) (IntOp.addi w 1024#32) w = w := by
  have h0 : IntOp.cmpi .slt w 0#32 = 0#1 := by
    show BitVec.ofBool (w.slt 0#32) = 0#1
    have : w.slt 0#32 = false := by
      simp only [BitVec.slt, hw, BitVec.toInt_zero, decide_eq_false_iff_not]
      omega
    rw [this]
    rfl
  rw [h0]
  exact select_zero _ _

/-- The source row of edge p, after the wrap, read signed. -/
private theorem v30_toInt (p : Fin 524288) :
    (val_main_v30 (F := Ideal) (ix2 p (0 : Fin 1))).toInt = ((p.val / 262144 * 512 + p.val / 512 % 512 : ℕ) : ℤ) := by
  have hp := p.isLt
  have hw := row_toInt (p.val / 262144) (p.val / 512 % 512) (by omega) (by omega)
  rw [val_main_v30_apply, val_main_v29_apply, val_main_v26_apply, val_main_v28_apply, val_main_v25_apply,
    val_main_v27_apply, val_main_c_0_apply, val_main_c_1_apply, v24_word]
  show (Scalar.select (IntOp.cmpi .slt _ 0#32) (IntOp.addi _ 1024#32)
    (BitVec.ofNat 32 (p.val / 262144) * 512#32 + BitVec.ofNat 32 (p.val / 512 % 512))).toInt = _
  rw [wrap_nonneg _ _ hw, hw]

/-- The target row of edge p, read signed. -/
private theorem v38_toInt (p : Fin 524288) :
    (val_main_v38 (F := Ideal) (ix2 p (0 : Fin 1))).toInt = ((p.val / 262144 * 512 + p.val % 512 : ℕ) : ℤ) := by
  have hp := p.isLt
  rw [val_main_v38_apply, v36_word]
  exact row_toInt (p.val / 262144) (p.val % 512) (by omega) (by omega)

/-! ## The message of an edge -/

/-- The features flattened to 1024 rows: row b · 512 + i, column f is x[b, i, f]. -/
private theorem v22_at (x : (⟨S2x512x128, .f32⟩ : BufTy).Contents (Elt Ideal)) (b i : ℕ) (hb : b < 2) (hi : i < 512)
    (f : Fin 128) (R : Fin 1024) (hR : R.val = b * 512 + i) :
    val_main_v22 (F := Ideal) x (ix2 R f) = x (ix3 ⟨b, hb⟩ ⟨i, hi⟩ f) := by
  have hf := f.isLt
  rw [val_main_v22_apply]
  congr 1
  funext c
  match c with
  | ⟨0, _⟩ => apply Fin.ext; show (R.val * 128 + f.val) / 65536 = b; omega
  | ⟨1, _⟩ => apply Fin.ext; show (R.val * 128 + f.val) / 128 % 512 = i; omega
  | ⟨2, _⟩ => apply Fin.ext; show (R.val * 128 + f.val) % 128 = f.val; omega

/-- The row looked up for edge p = (b, i, j) is x[b, i, ·]: the source row lies in range, so the clamp is idle. -/
private theorem v31_at (x : (⟨S2x512x128, .f32⟩ : BufTy).Contents (Elt Ideal)) (p : Fin 524288) (f : Fin 128) :
    val_main_v31 (F := Ideal) x (ix2 p f)
      = x (ix3 ⟨p.val / 262144, by have := p.isLt; omega⟩ ⟨p.val / 512 % 512, Nat.mod_lt _ (by decide)⟩ f) := by
  have hp := p.isLt
  unfold val_main_v31
  rw [Cert.Gcn.Lib.gather_rows_apply _ rfl rfl rfl rfl rfl _ _ p f (by omega)]
  refine v22_at x _ _ _ _ f _ ?_
  show min (val_main_v30 (F := Ideal) (ix2 p (0 : Fin 1))).toInt.toNat (1024 - 1) = p.val / 262144 * 512 + p.val / 512 % 512
  rw [v30_toInt]
  omega

/-- The weight spread over the features: at edge p = (b, i, j) it is a[b, i, j]. -/
private theorem v33_at (a : (⟨S2x512x512, .f32⟩ : BufTy).Contents (Elt Ideal)) (p : Fin 524288) (f : Fin 128) :
    val_main_v33 (F := Ideal) a (ix2 p f)
      = a (ix3 ⟨p.val / 262144, by have := p.isLt; omega⟩ ⟨p.val / 512 % 512, Nat.mod_lt _ (by decide)⟩
          ⟨p.val % 512, Nat.mod_lt _ (by decide)⟩) := by
  rw [val_main_v33_apply, val_main_v32_apply, val_main_v18_apply]
  congr 1
  funext c
  match c with
  | ⟨0, _⟩ => rfl
  | ⟨1, _⟩ => rfl
  | ⟨2, _⟩ => rfl

/-- The message of edge (b', i, j') at feature f as a function of three numbers, zero off the index ranges. -/
private def msg (x : (⟨S2x512x128, .f32⟩ : BufTy).Contents (Elt Ideal)) (a : (⟨S2x512x512, .f32⟩ : BufTy).Contents (Elt Ideal))
    (f : Fin 128) (b' i j' : ℕ) : EReal :=
  if h : b' < 2 ∧ i < 512 ∧ j' < 512 then
    a (ix3 ⟨b', h.1⟩ ⟨i, h.2.1⟩ ⟨j', h.2.2⟩) * x (ix3 ⟨b', h.1⟩ ⟨i, h.2.1⟩ f)
  else 0

/-- What edge p adds to row r: its message if its target row is r, written over the edge's three coordinates. -/
private theorem term_at (x : (⟨S2x512x128, .f32⟩ : BufTy).Contents (Elt Ideal)) (a : (⟨S2x512x512, .f32⟩ : BufTy).Contents (Elt Ideal))
    (r : Fin 1024) (f : Fin 128) (p : Fin 524288) :
    (if (val_main_v38 (F := Ideal) (ix2 p (0 : Fin 1))).toInt = (r.val : ℤ) then val_main_v34 (F := Ideal) x a (ix2 p f) else 0)
      = if p.val / 262144 * 512 + p.val % 512 = r.val / 512 * 512 + r.val % 512
          then msg x a f (p.val / 262144) (p.val / 512 % 512) (p.val % 512) else 0 := by
  have hp := p.isLt
  have hc : (val_main_v38 (F := Ideal) (ix2 p (0 : Fin 1))).toInt = (r.val : ℤ)
      ↔ p.val / 262144 * 512 + p.val % 512 = r.val / 512 * 512 + r.val % 512 := by
    rw [v38_toInt]; omega
  refine if_congr hc ?_ rfl
  unfold msg
  rw [dif_pos ⟨by omega, by omega, by omega⟩, val_main_v34_apply, v31_at, v33_at]
  exact mul_comm _ _

/-- Row r, feature f of the scattered messages is the gathered feature of node r % 512 of graph r / 512. -/
theorem v39_apply (x : (⟨S2x512x128, .f32⟩ : BufTy).Contents (Elt Ideal)) (a : (⟨S2x512x512, .f32⟩ : BufTy).Contents (Elt Ideal))
    (r : Fin 1024) (f : Fin 128) :
    val_main_v39 (F := Ideal) x a (ix2 r f)
      = Cert.Pool.agg x a ⟨r.val / 512, by have := r.isLt; omega⟩ ⟨r.val % 512, Nat.mod_lt _ (by decide)⟩ f := by
  have hr := r.isLt
  have hb : r.val / 512 < 2 := by omega
  have hj : r.val % 512 < 512 := by omega
  show Ideal.hostScatterAdd scatter_S1024x128_S524288x1_S524288x128_1_0_0_1 (val_main_v37 (F := Ideal))
    (val_main_v38 (F := Ideal)) (val_main_v34 (F := Ideal) x a) (ix2 r f) = _
  rw [Cert.Gcn.Lib.scatterAdd_rows_apply _ rfl rfl rfl rfl, val_main_v37_apply, val_main_cst_apply,
    Ideal.ofBits_def, Ideal.ofBits_zero_f32, zero_add,
    Finset.sum_congr rfl (fun p _ => term_at x a r f p),
    Cert.Pool.sum_edges_into (msg x a f) (r.val / 512) (r.val % 512) hb hj]
  unfold Cert.Pool.agg
  refine Finset.sum_congr rfl fun i _ => ?_
  unfold msg
  rw [dif_pos ⟨hb, i.isLt, hj⟩]

end Cert.ReferenceIdeal.RefValue

end
-- ==== Proof.RefPooled.lean ====
/-
  The reference's result is the specification: the scattered messages through the dense layer and the rectifier,
  the node rows of each graph summed by the second scatter, and the quotient by 512 the product with 2⁻⁹.
-/
import proofs.«163731_g37177236914935_cont_8to1_b_467_15_alg».proof.Proof.RefAgg
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Read

/-- The word 0x44000000 is the real number 512. -/
private theorem ofBits_512 : Ideal.ofBits .f32 0x44000000#32 = ((512 : ℝ) : EReal) := by
  simp [Ideal.ofBits, Ideal.ieee, -EReal.coe_mul]; norm_num

/-- The word 0x3B000000 is the real number 1 / 512. -/
private theorem ofBits_inv512 : Ideal.ofBits .f32 0x3B000000#32 = ((1 / 512 : ℝ) : EReal) := by
  simp [Ideal.ofBits, Ideal.ieee, -EReal.coe_mul]; norm_num

/-- The graph-number table: row r belongs to graph r / 512. -/
private theorem v46_apply (r : Fin 1024) :
    val_main_v46 (F := Ideal) (ix2 r (0 : Fin 1)) = BitVec.ofNat 32 (r.val / 512) := by
  rw [val_main_v46_apply, val_main_v44_apply, val_main_v43_apply, val_main_v42_apply]

/-- The table's word, read signed, is the graph number. -/
private theorem v46_toInt (r : Fin 1024) :
    (val_main_v46 (F := Ideal) (ix2 r (0 : Fin 1))).toInt = ((r.val / 512 : ℕ) : ℤ) := by
  rw [v46_apply]
  exact StableHlo.Predicate.toInt_ofNat_small _ (by have := r.isLt; omega)

/-- Row r, feature g after the dense layer and the rectifier. -/
private theorem v41_apply (x : (⟨S2x512x128, .f32⟩ : BufTy).Contents (Elt Ideal)) (a : (⟨S2x512x512, .f32⟩ : BufTy).Contents (Elt Ideal))
    (W : (⟨S128x128, .f32⟩ : BufTy).Contents (Elt Ideal)) (r : Fin 1024) (g : Fin 128) :
    val_main_v41 (F := Ideal) x a W (ix2 r g)
      = max (∑ k : Fin 128, Cert.Pool.agg x a ⟨r.val / 512, by have := r.isLt; omega⟩ ⟨r.val % 512, Nat.mod_lt _ (by decide)⟩ k
          * W (ix2 k g)) 0 := by
  rw [val_main_v41_apply, val_main_v40_apply, val_main_call0_v0_apply, val_main_call0_cst_apply, Ideal.maximumf_def]
  have hz : (FloatOps.ofBits .f32 0x00000000#32 : Ideal .f32) = (0 : EReal) := Ideal.ofBits_zero_f32
  rw [hz]
  refine congrArg (fun s : EReal => max s 0) (Finset.sum_congr rfl fun k _ => ?_)
  have e1 : lidx_main_v40 (ix2 r g) k = ix2 r k := funext fun c => by
    match c with
    | ⟨0, _⟩ => rfl
    | ⟨1, _⟩ => rfl
  have e2 : ridx_main_v40 (ix2 r g) k = ix2 k g := funext fun c => by
    match c with
    | ⟨0, _⟩ => rfl
    | ⟨1, _⟩ => rfl
  rw [e1, e2, v39_apply]

/-- The second scatter at graph b, feature g: the rows whose table entry is b, summed. -/
private theorem v47_apply (x : (⟨S2x512x128, .f32⟩ : BufTy).Contents (Elt Ideal)) (a : (⟨S2x512x512, .f32⟩ : BufTy).Contents (Elt Ideal))
    (W : (⟨S128x128, .f32⟩ : BufTy).Contents (Elt Ideal)) (b : Fin 2) (g : Fin 128) :
    val_main_v47 (F := Ideal) x a W (ix2 b g)
      = ∑ r : Fin 1024, if r.val / 512 = b.val then val_main_v41 (F := Ideal) x a W (ix2 r g) else 0 := by
  unfold val_main_v47 Host.scatterAdd
  rw [Ideal.hostScatterAdd_def,
    Cert.Gcn.Lib.scatterAdd_rows_apply scatter_S2x128_S1024x1_S1024x128_1_0_0_1 rfl rfl rfl rfl,
    val_main_v45_apply, val_main_cst_2_apply]
  have hz : (FloatOps.ofBits .f32 0x00000000#32 : Ideal .f32) = (0 : EReal) := Ideal.ofBits_zero_f32
  rw [hz, zero_add]
  refine Finset.sum_congr rfl fun r _ => ?_
  rw [v46_toInt]
  exact if_congr Nat.cast_inj rfl rfl

/-- The reference's last stage, as a function of the three argument arrays, is the pooled layer. -/
theorem v49_eq (x : (⟨S2x512x128, .f32⟩ : BufTy).Contents (Elt Ideal)) (a : (⟨S2x512x512, .f32⟩ : BufTy).Contents (Elt Ideal))
    (W : (⟨S128x128, .f32⟩ : BufTy).Contents (Elt Ideal)) :
    val_main_v49 (F := Ideal) x a W = Cert.Pool.pooled x a W := by
  funext o
  obtain ⟨b, g, rfl⟩ : ∃ (b : Fin 2) (g : Fin 128), o = ix2 b g := ⟨o 0, o 1, eq_ix2 o⟩
  rw [val_main_v49_apply, Ideal.hostDivf_def, v47_apply, val_main_v48_apply, val_main_cst_3_apply]
  have h512 : (FloatOps.ofBits .f32 0x44000000#32 : Ideal .f32) = ((512 : ℝ) : EReal) := ofBits_512
  rw [h512, Ideal.div_coe (by norm_num : (512 : ℝ) ≠ 0)]
  show _ = (∑ j : Fin 512, Cert.Pool.hid x a W b j g) * Ideal.ofBits .f32 0x3B000000#32
  rw [ofBits_inv512]
  refine congrArg (fun s : EReal => s * ((1 / 512 : ℝ) : EReal)) ?_
  -- the rows of graph b, through the re-indexing of the node rows
  have hb : b.val < 2 := b.isLt
  let H : ℕ → EReal := fun r => if h : r < 1024 then val_main_v41 (F := Ideal) x a W (ix2 ⟨r, h⟩ g) else 0
  have hH : ∀ r : Fin 1024, val_main_v41 (F := Ideal) x a W (ix2 r g) = H r.val := fun r => by
    show _ = dite _ _ _
    rw [dif_pos r.isLt]
  rw [Finset.sum_congr rfl (fun r _ => by rw [hH r]), Cert.Pool.sum_rows_of H b.val hb]
  refine Finset.sum_congr rfl fun j _ => ?_
  have hj : j.val < 512 := j.isLt
  have hr : b.val * 512 + j.val < 1024 := by omega
  show dite _ _ _ = _
  rw [dif_pos hr, v41_apply]
  unfold Cert.Pool.hid
  have eb : (⟨(b.val * 512 + j.val) / 512, by omega⟩ : Fin 2) = b := Fin.ext (by show (b.val * 512 + j.val) / 512 = b.val; omega)
  have ej : (⟨(b.val * 512 + j.val) % 512, Nat.mod_lt _ (by decide)⟩ : Fin 512) = j :=
    Fin.ext (by show (b.val * 512 + j.val) % 512 = j.val; omega)
  rw [eb, ej]

end Cert.ReferenceIdeal.RefValue

end
-- ==== Proof.lean ====
/-
  The certificate of the pooled graph layer. The kernel runs one grid point per graph: it multiplies the transposed
  adjacency block with the feature block, applies the dense layer and the rectifier, sums the 512 node rows and
  scales by 2⁻⁹, storing one row of the 2 × 128 result per point. The reference lists all 2·512·512 edges, gathers
  the source rows, scales them by the edge weights, scatter-adds them at the target rows, applies the same dense
  layer and rectifier, scatter-adds the node rows by graph and divides by 512. On the extended reals both are the
  function `Cert.Pool.pooled` of the three argument arrays: the edge list reindexes the kernel's sums
  (commutativity and associativity of the sum only, no law that needs finite values), and the quotient by 512 is
  the product with 2⁻⁹. The three frames: the two kernel programs by the relational run of the pipelined call,
  the reference by its run with the result dropped. The idealization rewrote nothing, so `preserves` is trivial.
-/
import proofs.«163731_g37177236914935_cont_8to1_b_467_15_alg».proof.Defs
import proofs.«163731_g37177236914935_cont_8to1_b_467_15_alg».proof.Proof.Gen.Kernel
import proofs.«163731_g37177236914935_cont_8to1_b_467_15_alg».proof.Proof.Gen.KernelIdeal
import proofs.«163731_g37177236914935_cont_8to1_b_467_15_alg».proof.Proof.Gen.ReferenceIdeal
import proofs.«163731_g37177236914935_cont_8to1_b_467_15_alg».proof.Proof.Gen.ReferenceIdeal.Run
import proofs.«163731_g37177236914935_cont_8to1_b_467_15_alg».proof.Proof.Gen.ReferenceIdeal.Read
import proofs.«163731_g37177236914935_cont_8to1_b_467_15_alg».proof.Proof.Gen.Pre_finite_inputs
import proofs.«163731_g37177236914935_cont_8to1_b_467_15_alg».proof.Proof.StepBits
import proofs.«163731_g37177236914935_cont_8to1_b_467_15_alg».proof.Proof.StepIdeal
import proofs.«163731_g37177236914935_cont_8to1_b_467_15_alg».proof.Proof.KernelValue
import proofs.«163731_g37177236914935_cont_8to1_b_467_15_alg».proof.Proof.RefPooled
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Step.frame m ρ

theorem frame_ki : @Cert.frame_KernelIdeal Cert.KernelIdeal.Gen.facts Cert.Pre_finite_inputs.Gen.facts :=
  fun m ρ _ => Cert.KernelIdeal.Step.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end at the pooled layer of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.v49_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
